-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2000x256 : Shape := ⟨2, ![2000, 256]⟩
abbrev S1x256 : Shape := ⟨2, ![1, 256]⟩
abbrev S1000000x128 : Shape := ⟨2, ![1000000, 128]⟩
abbrev S1000000 : Shape := ⟨1, ![1000000]⟩
abbrev S256 : Shape := ⟨1, ![256]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S2000x256 : S_.BroadcastsInDim S2000x256 (![] : Fin 0 → Fin S2000x256.rank)
  reducesTo_S2000x256_S_d0_1 : S2000x256.ReducesTo [0, 1] S_
  bcast_S_S1x256 : S_.BroadcastsInDim S1x256 (![] : Fin 0 → Fin S1x256.rank)
  reducesTo_S1x256_S_d0_1 : S1x256.ReducesTo [0, 1] S_
  bcast_S_S1000000x128 : S_.BroadcastsInDim S1000000x128 (![] : Fin 0 → Fin S1000000x128.rank)
  reducesTo_S1000000x128_S_d0_1 : S1000000x128.ReducesTo [0, 1] S_
  bcast_S_S256 : S_.BroadcastsInDim S256 (![] : Fin 0 → Fin S256.rank)
  reducesTo_S256_S_d0 : S256.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S1000000 : S_.BroadcastsInDim S1000000 (![] : Fin 0 → Fin S1000000.rank)
  reducesTo_S1000000_S_d0 : S1000000.ReducesTo [0] S_

variable [Facts]

def fn_part5 {F : FTy → Type} [FloatOps F] (main_v80 : IVec S_ 1) (main_v82 : IVec S1000000 1) (main_v84 : IVec S1000000 1) : IVec S_ 1 :=
  let main_v85 : IVec S1000000 1 := andi main_v82 main_v84
  let main_c_33 : IVec S_ 1 := constantI S_ 1 1#1
  let main_v86 : IVec S_ 1 := (fun x v => Host.reduce IntOp.andi x v reducesTo_S1000000_S_d0 h_S_) main_v85 main_c_33
  let main_v87 : IVec S_ 1 := andi main_v80 main_v86
  main_v87

def fn_part4 {F : FTy → Type} [FloatOps F] (main_arg4 : IVec S1000000 32) (main_arg5 : IVec S1000000 32) (main_arg16 : FVec F S128x256 .f32) (main_v63 : IVec S_ 1) (main_v67 : IVec S_ 1) : IVec S_ 1 :=
  let main_v68 : IVec S_ 1 := andi main_v63 main_v67
  let main_v69 : FVec F S128x256 .f32 := Host.absf main_arg16
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_c_28 : IVec S_ 32 := constantI S_ 32 0#32
  let main_v74 : IVec S1000000 32 := broadcastInDim S1000000 ![] bcast_S_S1000000 main_c_28
  let main_v75 : IVec S1000000 1 := cmpi .sge main_arg4 main_v74
  let main_c_29 : IVec S_ 32 := constantI S_ 32 2000#32
  let main_v76 : IVec S1000000 32 := broadcastInDim S1000000 ![] bcast_S_S1000000 main_c_29
  let main_v77 : IVec S1000000 1 := cmpi .slt main_arg4 main_v76
  let main_v78 : IVec S1000000 1 := andi main_v75 main_v77
  let main_c_30 : IVec S_ 1 := constantI S_ 1 1#1
  let main_v79 : IVec S_ 1 := (fun x v => Host.reduce IntOp.andi x v reducesTo_S1000000_S_d0 h_S_) main_v78 main_c_30
  let main_v80 : IVec S_ 1 := andi main_v73 main_v79
  let main_c_31 : IVec S_ 32 := constantI S_ 32 0#32
  let main_v81 : IVec S1000000 32 := broadcastInDim S1000000 ![] bcast_S_S1000000 main_c_31
  let main_v82 : IVec S1000000 1 := cmpi .sge main_arg5 main_v81
  let main_c_32 : IVec S_ 32 := constantI S_ 32 100000#32
  let main_v83 : IVec S1000000 32 := broadcastInDim S1000000 ![] bcast_S_S1000000 main_c_32
  let main_v84 : IVec S1000000 1 := cmpi .slt main_arg5 main_v83
  fn_part5 (F := F) main_v80 main_v82 main_v84

def fn_part3 {F : FTy → Type} [FloatOps F] (main_arg4 : IVec S1000000 32) (main_arg5 : IVec S1000000 32) (main_arg13 : FVec F S128 .f32) (main_arg14 : FVec F S128x256 .f32) (main_arg15 : FVec F S128x256 .f32) (main_arg16 : FVec F S128x256 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg14
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128x256 .f32 := Host.absf main_arg15
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg4 main_arg5 main_arg16 main_v63 main_v67

def fn_part2 {F : FTy → Type} [FloatOps F] (main_arg4 : IVec S1000000 32) (main_arg5 : IVec S1000000 32) (main_arg9 : FVec F S256 .f32) (main_arg10 : FVec F S256 .f32) (main_arg11 : FVec F S256 .f32) (main_arg12 : FVec F S128x128 .f32) (main_arg13 : FVec F S128 .f32) (main_arg14 : FVec F S128x256 .f32) (main_arg15 : FVec F S128x256 .f32) (main_arg16 : FVec F S128x256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg4 main_arg5 main_arg13 main_arg14 main_arg15 main_arg16 main_v48 main_v49 main_v50

def fn_part1 {F : FTy → Type} [FloatOps F] (main_arg4 : IVec S1000000 32) (main_arg5 : IVec S1000000 32) (main_arg6 : FVec F S256 .f32) (main_arg7 : FVec F S256 .f32) (main_arg8 : FVec F S256 .f32) (main_arg9 : FVec F S256 .f32) (main_arg10 : FVec F S256 .f32) (main_arg11 : FVec F S256 .f32) (main_arg12 : FVec F S128x128 .f32) (main_arg13 : FVec F S128 .f32) (main_arg14 : FVec F S128x256 .f32) (main_arg15 : FVec F S128x256 .f32) (main_arg16 : FVec F S128x256 .f32) (main_v13 : IVec S_ 1) (main_v16 : IVec S1000000x128 1) : IVec S_ 1 :=
  let main_c_5 : IVec S_ 1 := constantI S_ 1 1#1
  let main_v17 : IVec S_ 1 := (fun x v => Host.reduce IntOp.andi x v reducesTo_S1000000x128_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg4 main_arg5 main_arg9 main_arg10 main_arg11 main_arg12 main_arg13 main_arg14 main_arg15 main_arg16 main_v33

def fn {F : FTy → Type} [FloatOps F] (main_arg0 : FVec F S100000x256 .f32) (main_arg1 : FVec F S2000x256 .f32) (main_arg2 : FVec F S1x256 .f32) (main_arg3 : FVec F S1000000x128 .f32) (main_arg4 : IVec S1000000 32) (main_arg5 : IVec S1000000 32) (main_arg6 : FVec F S256 .f32) (main_arg7 : FVec F S256 .f32) (main_arg8 : FVec F S256 .f32) (main_arg9 : FVec F S256 .f32) (main_arg10 : FVec F S256 .f32) (main_arg11 : FVec F S256 .f32) (main_arg12 : FVec F S128x128 .f32) (main_arg13 : FVec F S128 .f32) (main_arg14 : FVec F S128x256 .f32) (main_arg15 : FVec F S128x256 .f32) (main_arg16 : FVec F S128x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S2000x256 .f32 := Host.absf main_arg1
  let main_cst_0 : FVec F S_ .f32 := constant S_ .f32 0x7F800000#32
  let main_v5 : FVec F S2000x256 .f32 := broadcastInDim S2000x256 ![] bcast_S_S2000x256 main_cst_0
  let main_v6 : IVec S2000x256 1 := cmpf .olt main_v4 main_v5
  let main_c_1 : IVec S_ 1 := constantI S_ 1 1#1
  let main_v7 : IVec S_ 1 := (fun x v => Host.reduce IntOp.andi x v reducesTo_S2000x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1000000x128 .f32 := Host.absf main_arg3
  let main_cst_4 : FVec F S_ .f32 := constant S_ .f32 0x7F800000#32
  let main_v15 : FVec F S1000000x128 .f32 := broadcastInDim S1000000x128 ![] bcast_S_S1000000x128 main_cst_4
  let main_v16 : IVec S1000000x128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S100000x256 : Shape := ⟨2, ![100000, 256]⟩
abbrev S2000x256 : Shape := ⟨2, ![2000, 256]⟩
abbrev S1x256 : Shape := ⟨2, ![1, 256]⟩
abbrev S1000000x128 : Shape := ⟨2, ![1000000, 128]⟩
abbrev S1000000 : Shape := ⟨1, ![1000000]⟩
abbrev S256 : Shape := ⟨1, ![256]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S256x128 : Shape := ⟨2, ![256, 128]⟩
abbrev S100000x128 : Shape := ⟨2, ![100000, 128]⟩
abbrev S5000x256 : Shape := ⟨2, ![5000, 256]⟩
abbrev S5000x128 : Shape := ⟨2, ![5000, 128]⟩
abbrev S5000 : Shape := ⟨1, ![5000]⟩
abbrev S5000x1 : Shape := ⟨2, ![5000, 1]⟩
abbrev S2000x128 : Shape := ⟨2, ![2000, 128]⟩
abbrev S2000 : Shape := ⟨1, ![2000]⟩
abbrev S2000x1 : Shape := ⟨2, ![2000, 1]⟩
abbrev S1 : Shape := ⟨1, ![1]⟩
abbrev S1x1 : Shape := ⟨2, ![1, 1]⟩
abbrev S8000x128 : Shape := ⟨2, ![8000, 128]⟩
abbrev S_ : Shape := ⟨0, ![]⟩
abbrev S1000000x1 : Shape := ⟨2, ![1000000, 1]⟩

abbrev nBuf : Space → Nat
  | .hbm => 85
  | .vmem => 23
  | .smem => 0
  | _ => 0

abbrev bufTy : (tb : Table) → Fin (tcTables nBuf tb) → BufTy
  | .hbm, ⟨0, _⟩ => ⟨S100000x256, .f32⟩
  | .hbm, ⟨1, _⟩ => ⟨S2000x256, .f32⟩
  | .hbm, ⟨2, _⟩ => ⟨S1x256, .f32⟩
  | .hbm, ⟨3, _⟩ => ⟨S1000000x128, .f32⟩
  | .hbm, ⟨4, _⟩ => ⟨S1000000, .i32⟩
  | .hbm, ⟨5, _⟩ => ⟨S1000000, .i32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128x128, .f32⟩
  | .hbm, ⟨13, _⟩ => ⟨S128, .f32⟩
  | .hbm, ⟨14, _⟩ => ⟨S128x256, .f32⟩
  | .hbm, ⟨15, _⟩ => ⟨S128x256, .f32⟩
  | .hbm, ⟨16, _⟩ => ⟨S128x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x128, .f32⟩
  | .hbm, ⟨24, _⟩ => ⟨S256x128, .f32⟩
  | .hbm, ⟨25, _⟩ => ⟨S256x128, .f32⟩
  | .hbm, ⟨26, _⟩ => ⟨S256x128, .f32⟩
  | .hbm, ⟨27, _⟩ => ⟨S128x128, .f32⟩
  | .hbm, ⟨28, _⟩ => ⟨S100000x128, .f32⟩
  | .hbm, ⟨29, _⟩ => ⟨S2000x128, .f32⟩
  | .hbm, ⟨30, _⟩ => ⟨S1x128, .f32⟩
  | .hbm, ⟨31, _⟩ => ⟨S1000000x128, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1, .i32⟩
  | .hbm, ⟨41, _⟩ => ⟨S_, .i32⟩
  | .hbm, ⟨42, _⟩ => ⟨S1000000x1, .i32⟩
  | .hbm, ⟨43, _⟩ => ⟨S1000000x1, .i1⟩
  | .hbm, ⟨44, _⟩ => ⟨S1x1, .i32⟩
  | .hbm, ⟨45, _⟩ => ⟨S1000000x1, .i32⟩
  | .hbm, ⟨46, _⟩ => ⟨S1000000x1, .i1⟩
  | .hbm, ⟨47, _⟩ => ⟨S1000000x1, .i1⟩
  | .hbm, ⟨48, _⟩ => ⟨S_, .i1⟩
  | .hbm, ⟨49, _⟩ => ⟨S1000000, .i1⟩
  | .hbm, ⟨50, _⟩ => ⟨S1000000x128, .f32⟩
  | .hbm, ⟨51, _⟩ => ⟨S1000000x128, .i1⟩
  | .hbm, ⟨52, _⟩ => ⟨S_, .f32⟩
  | .hbm, ⟨53, _⟩ => ⟨S1000000x128, .f32⟩
  | .hbm, ⟨54, _⟩ => ⟨S1000000x128, .f32⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1, .i32⟩
  | .hbm, ⟨64, _⟩ => ⟨S_, .i32⟩
  | .hbm, ⟨65, _⟩ => ⟨S1000000x1, .i32⟩
  | .hbm, ⟨66, _⟩ => ⟨S1000000x1, .i1⟩
  | .hbm, ⟨67, _⟩ => ⟨S1x1, .i32⟩
  | .hbm, ⟨68, _⟩ => ⟨S1000000x1, .i32⟩
  | .hbm, ⟨69, _⟩ => ⟨S1000000x1, .i1⟩
  | .hbm, ⟨70, _⟩ => ⟨S1000000x1, .i1⟩
  | .hbm, ⟨71, _⟩ => ⟨S_, .i1⟩
  | .hbm, ⟨72, _⟩ => ⟨S1000000, .i1⟩
  | .hbm, ⟨73, _⟩ => ⟨S1000000x128, .f32⟩
  | .hbm, ⟨74, _⟩ => ⟨S1000000x128, .i1⟩
  | .hbm, ⟨75, _⟩ => ⟨S_, .f32⟩
  | .hbm, ⟨76, _⟩ => ⟨S1000000x128, .f32⟩
  | .hbm, ⟨77, _⟩ => ⟨S1000000x128, .f32⟩
  | .hbm, ⟨78, _⟩ => ⟨S1000000x128, .f32⟩
  | .hbm, ⟨79, _⟩ => ⟨S1000000x128, .f32⟩
  | .hbm, ⟨80, _⟩ => ⟨S1000000x128, .f32⟩
  | .hbm, ⟨81, _⟩ => ⟨S1000000x128, .f32⟩
  | .hbm, ⟨82, _⟩ => ⟨S_, .f32⟩
  | .hbm, ⟨83, _⟩ => ⟨S1000000x128, .f32⟩
  | .hbm, ⟨84, _⟩ => ⟨S1000000x128, .f32⟩
  | .local _ .vmem, ⟨0, _⟩ => ⟨S5000x256, .f32⟩
  | .local _ .vmem, ⟨1, _⟩ => ⟨S5000x256, .f32⟩
  | .local _ .vmem, ⟨2, _⟩ => ⟨S1x256, .f32⟩
  | .local _ .vmem, ⟨3, _⟩ => ⟨S1x256, .f32⟩
  | .local _ .vmem, ⟨4, _⟩ => ⟨S256x128, .f32⟩
  | .local _ .vmem, ⟨5, _⟩ => ⟨S5000x128, .f32⟩
  | .local _ .vmem, ⟨6, _⟩ => ⟨S5000x128, .f32⟩
  | .local _ .vmem, ⟨7, _⟩ => ⟨S2000x256, .f32⟩
  | .local _ .vmem, ⟨8, _⟩ => ⟨S1x256, .f32⟩
  | .local _ .vmem, ⟨9, _⟩ => ⟨S1x256, .f32⟩
  | .local _ .vmem, ⟨10, _⟩ => ⟨S256x128, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x128, .f32⟩
  | .local _ .vmem, ⟨15, _⟩ => ⟨S2000x128, .f32⟩
  | .local _ .vmem, ⟨16, _⟩ => ⟨S1x128, .f32⟩
  | .local _ .vmem, ⟨17, _⟩ => ⟨S8000x128, .f32⟩
  | .local _ .vmem, ⟨18, _⟩ => ⟨S8000x128, .f32⟩
  | .local _ .vmem, ⟨19, _⟩ => ⟨S128x128, .f32⟩
  | .local _ .vmem, ⟨20, _⟩ => ⟨S1x128, .f32⟩
  | .local _ .vmem, ⟨21, _⟩ => ⟨S8000x128, .f32⟩
  | .local _ .vmem, ⟨22, _⟩ => ⟨S8000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev main_v13 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_cst : Ref sig .tc := ⟨.hbm, 52, rfl⟩
abbrev main_call0_v15 : Ref sig .tc := ⟨.hbm, 53, rfl⟩
abbrev main_v14 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_cst : Ref sig .tc := ⟨.hbm, 82, rfl⟩
abbrev main_v20 : Ref sig .tc := ⟨.hbm, 83, rfl⟩
abbrev main_v21 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2000x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2000x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S256_S1x256 : S256.ShapeCasts S1x256
  shapeCasts_S128_S1x128 : S128.ShapeCasts S1x128
  transposes_S128x256_S256x128_1_0 : S128x256.Transposes [1, 0] S256x128
  transposes_S128x128_S128x128_1_0 : S128x128.Transposes [1, 0] S128x128
  inb_S5000x256_S5000x256_0_0 : ∀ a, (![0, 0] : Fin 2 → Nat) a + S5000x256.size a ≤ S5000x256.size a
  h_S5000x256 : 0 < S5000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S5000x256_S5000 : S5000x256.Reduces [1] S5000
  shapeCasts_S5000_S5000x1 : S5000.ShapeCasts S5000x1
  broadcasts_S5000x1_S5000x256 : S5000x1.Broadcasts S5000x256
  broadcasts_S1x256_S5000x256 : S1x256.Broadcasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  inb_S2000x256_S2000x256_0_0 : ∀ a, (![0, 0] : Fin 2 → Nat) a + S2000x256.size a ≤ S2000x256.size a
  h_S2000x256 : 0 < S2000x256.numel
  reduces_S2000x256_S2000 : S2000x256.Reduces [1] S2000
  shapeCasts_S2000_S2000x1 : S2000.ShapeCasts S2000x1
  broadcasts_S2000x1_S2000x256 : S2000x1.Broadcasts S2000x256
  broadcasts_S1x256_S2000x256 : S1x256.Broadcasts S2000x256
  inb_S2000x128_S2000x128_0_0 : ∀ a, (![0, 0] : Fin 2 → Nat) a + S2000x128.size a ≤ S2000x128.size a
  h_S2000x128 : 0 < S2000x128.numel
  reduces_S1x256_S1 : S1x256.Reduces [1] S1
  shapeCasts_S1_S1x1 : S1.ShapeCasts S1x1
  broadcasts_S1x1_S1x256 : S1x1.Broadcasts S1x256
  inb_S1x128_S1x128_0_0 : ∀ a, (![0, 0] : Fin 2 → Nat) a + S1x128.size a ≤ S1x128.size a
  h_S1x128 : 0 < S1x128.numel
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S8000x128 : S1x128.Broadcasts S8000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  bcast_S1x128_S1000000x128_0_1 : S1x128.BroadcastsInDim S1000000x128 (![0, 1] : Fin 2 → Fin S1000000x128.rank)
  dot_S5000x256_S256x128_S5000x128_1_0_0_1_n_n_wf : DotDims.WF S5000x256 S256x128 S5000x128 [1] [0] [0] [1] [] []
  dot_S2000x256_S256x128_S2000x128_1_0_0_1_n_n_wf : DotDims.WF S2000x256 S256x128 S2000x128 [1] [0] [0] [1] [] []
  dot_S1x256_S256x128_S1x128_1_0_0_1_n_n_wf : DotDims.WF S1x256 S256x128 S1x128 [1] [0] [0] [1] [] []
  dot_S8000x128_S128x128_S8000x128_1_0_0_1_n_n_wf : DotDims.WF S8000x128 S128x128 S8000x128 [1] [0] [0] [1] [] []
  gather_S100000x128_S1000000x1_S1000000x128_1_0_n_n_0_1_1128_wf : GatherDims.WF S100000x128 S1000000x1 S1000000x128 [1] [0] [] [0] [] 1 ![1, 128]
  gather_S2000x128_S1000000x1_S1000000x128_1_0_n_n_0_1_1128_wf : GatherDims.WF S2000x128 S1000000x1 S1000000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S2000x256.size a
  hwx1_0 : ∀ i : grid1.Coords, EltTy.bits .f32 = 32 ∨ (Rect.block (s := S2000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S256x128.size a
  hwx1_7 : ∀ i : grid1.Coords, EltTy.bits .f32 = 32 ∨ (Rect.block (s := S256x128) S256x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S2000x128.size a
  hwx1_8 : ∀ i : grid1.Coords, EltTy.bits .f32 = 32 ∨ (Rect.block (s := S2000x128) S2000x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S1000000x128.size a
  hwx2_0 : ∀ i : grid2.Coords, EltTy.bits .f32 = 32 ∨ (Rect.block (s := S1000000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x128.size a ≤ S1000000x128.size a
  hwx2_3 : ∀ i : grid2.Coords, EltTy.bits .f32 = 32 ∨ (Rect.block (s := S1000000x128) S8000x128.size (cc2_transform_3 i) (hinb2_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S2000x128_S1000000x1_S1000000x128_1_0_n_n_0_1_1128 : GatherDims S2000x128 S1000000x1 S1000000x128 where
  offsetDims := [1]
  collapsedSliceDims := [0]
  operandBatchingDims := []
  startIndicesBatchingDims := []
  startIndexMap := [0]
  indexVectorDim := 1
  sliceSizes := ![1, 128]
  wf := gather_S2000x128_S1000000x1_S1000000x128_1_0_n_n_0_1_1128_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S2000x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S256x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12_0) S2000x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12_1) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg3) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S8000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S2000x256 : Shape := ⟨2, ![2000, 256]⟩
abbrev S1x256 : Shape := ⟨2, ![1, 256]⟩
abbrev S1000000x128 : Shape := ⟨2, ![1000000, 128]⟩
abbrev S1000000 : Shape := ⟨1, ![1000000]⟩
abbrev S256 : Shape := ⟨1, ![256]⟩
abbrev S128x128 : Shape := ⟨2, ![128, 128]⟩
abbrev S128 : Shape := ⟨1, ![128]⟩
abbrev S128x256 : Shape := ⟨2, ![128, 256]⟩
abbrev S_ : Shape := ⟨0, ![]⟩
abbrev S100000 : Shape := ⟨1, ![100000]⟩
abbrev S100000x1 : Shape := ⟨2, ![100000, 1]⟩
abbrev S2000 : Shape := ⟨1, ![2000]⟩
abbrev S2000x1 : Shape := ⟨2, ![2000, 1]⟩
abbrev S1 : Shape := ⟨1, ![1]⟩
abbrev S1x1 : Shape := ⟨2, ![1, 1]⟩
abbrev S1x128 : Shape := ⟨2, ![1, 128]⟩
abbrev S256x128 : Shape := ⟨2, ![256, 128]⟩
abbrev S100000x128 : Shape := ⟨2, ![100000, 128]⟩
abbrev S2000x128 : Shape := ⟨2, ![2000, 128]⟩
abbrev S1000000x1 : Shape := ⟨2, ![1000000, 1]⟩

abbrev nBuf : Space → Nat
  | .hbm => 147
  | .vmem => 0
  | .smem => 0
  | _ => 0

abbrev hbmTy0_0 (i : Nat) : BufTy := match i % 128 with
  | 0 => ⟨S100000x256, .f32⟩
  | 1 => ⟨S2000x256, .f32⟩
  | 2 => ⟨S1x256, .f32⟩
  | 3 => ⟨S1000000x128, .f32⟩
  | 4 => ⟨S1000000, .i32⟩
  | 5 => ⟨S1000000, .i32⟩
  | 6 => ⟨S256, .f32⟩
  | 7 => ⟨S256, .f32⟩
  | 8 => ⟨S256, .f32⟩
  | 9 => ⟨S256, .f32⟩
  | 10 => ⟨S256, .f32⟩
  | 11 => ⟨S256, .f32⟩
  | 12 => ⟨S128x128, .f32⟩
  | 13 => ⟨S128, .f32⟩
  | 14 => ⟨S128x256, .f32⟩
  | 15 => ⟨S128x256, .f32⟩
  | 16 => ⟨S128x256, .f32⟩
  | 17 => ⟨S_, .f32⟩
  | 18 => ⟨S100000, .f32⟩
  | 19 => ⟨S100000x1, .f32⟩
  | 20 => ⟨S_, .f32⟩
  | 21 => ⟨S100000x1, .f32⟩
  | 22 => ⟨S100000x1, .f32⟩
  | 23 => ⟨S100000x256, .f32⟩
  | 24 => ⟨S100000x256, .f32⟩
  | 25 => ⟨S100000x256, .f32⟩
  | 26 => ⟨S_, .f32⟩
  | 27 => ⟨S100000, .f32⟩
  | 28 => ⟨S100000x1, .f32⟩
  | 29 => ⟨S_, .f32⟩
  | 30 => ⟨S100000x1, .f32⟩
  | 31 => ⟨S100000x1, .f32⟩
  | 32 => ⟨S100000x256, .f32⟩
  | 33 => ⟨S100000x256, .f32⟩
  | 34 => ⟨S_, .f32⟩
  | 35 => ⟨S100000x1, .f32⟩
  | 36 => ⟨S100000x1, .f32⟩
  | 37 => ⟨S100000x1, .f32⟩
  | 38 => ⟨S100000x256, .f32⟩
  | 39 => ⟨S100000x256, .f32⟩
  | 40 => ⟨S1x256, .f32⟩
  | 41 => ⟨S100000x256, .f32⟩
  | 42 => ⟨S100000x256, .f32⟩
  | 43 => ⟨S1x256, .f32⟩
  | 44 => ⟨S100000x256, .f32⟩
  | 45 => ⟨S100000x256, .f32⟩
  | 46 => ⟨S_, .f32⟩
  | 47 => ⟨S100000x256, .f32⟩
  | 48 => ⟨S100000x256, .f32⟩
  | 49 => ⟨S_, .f32⟩
  | 50 => ⟨S2000, .f32⟩
  | 51 => ⟨S2000x1, .f32⟩
  | 52 => ⟨S_, .f32⟩
  | 53 => ⟨S2000x1, .f32⟩
  | 54 => ⟨S2000x1, .f32⟩
  | 55 => ⟨S2000x256, .f32⟩
  | 56 => ⟨S2000x256, .f32⟩
  | 57 => ⟨S2000x256, .f32⟩
  | 58 => ⟨S_, .f32⟩
  | 59 => ⟨S2000, .f32⟩
  | 60 => ⟨S2000x1, .f32⟩
  | 61 => ⟨S_, .f32⟩
  | 62 => ⟨S2000x1, .f32⟩
  | 63 => ⟨S2000x1, .f32⟩
  | 64 => ⟨S2000x256, .f32⟩
  | 65 => ⟨S2000x256, .f32⟩
  | 66 => ⟨S_, .f32⟩
  | 67 => ⟨S2000x1, .f32⟩
  | 68 => ⟨S2000x1, .f32⟩
  | 69 => ⟨S2000x1, .f32⟩
  | 70 => ⟨S2000x256, .f32⟩
  | 71 => ⟨S2000x256, .f32⟩
  | 72 => ⟨S1x256, .f32⟩
  | 73 => ⟨S2000x256, .f32⟩
  | 74 => ⟨S2000x256, .f32⟩
  | 75 => ⟨S1x256, .f32⟩
  | 76 => ⟨S2000x256, .f32⟩
  | 77 => ⟨S2000x256, .f32⟩
  | 78 => ⟨S_, .f32⟩
  | 79 => ⟨S2000x256, .f32⟩
  | 80 => ⟨S2000x256, .f32⟩
  | 81 => ⟨S_, .f32⟩
  | 82 => ⟨S1, .f32⟩
  | 83 => ⟨S1x1, .f32⟩
  | 84 => ⟨S_, .f32⟩
  | 85 => ⟨S1x1, .f32⟩
  | 86 => ⟨S1x1, .f32⟩
  | 87 => ⟨S1x256, .f32⟩
  | 88 => ⟨S1x256, .f32⟩
  | 89 => ⟨S1x256, .f32⟩
  | 90 => ⟨S_, .f32⟩
  | 91 => ⟨S1, .f32⟩
  | 92 => ⟨S1x1, .f32⟩
  | 93 => ⟨S_, .f32⟩
  | 94 => ⟨S1x1, .f32⟩
  | 95 => ⟨S1x1, .f32⟩
  | 96 => ⟨S1x256, .f32⟩
  | 97 => ⟨S1x256, .f32⟩
  | 98 => ⟨S_, .f32⟩
  | 99 => ⟨S1x1, .f32⟩
  | 100 => ⟨S1x1, .f32⟩
  | 101 => ⟨S1x1, .f32⟩
  | 102 => ⟨S1x256, .f32⟩
  | 103 => ⟨S1x256, .f32⟩
  | 104 => ⟨S1x256, .f32⟩
  | 105 => ⟨S1x256, .f32⟩
  | 106 => ⟨S1x256, .f32⟩
  | 107 => ⟨S1x256, .f32⟩
  | 108 => ⟨S_, .f32⟩
  | 109 => ⟨S1x256, .f32⟩
  | 110 => ⟨S1x256, .f32⟩
  | 111 => ⟨S128x128, .f32⟩
  | 112 => ⟨S1000000x128, .f32⟩
  | 113 => ⟨S1x128, .f32⟩
  | 114 => ⟨S1000000x128, .f32⟩
  | 115 => ⟨S1000000x128, .f32⟩
  | 116 => ⟨S256x128, .f32⟩
  | 117 => ⟨S100000x128, .f32⟩
  | 118 => ⟨S256x128, .f32⟩
  | 119 => ⟨S2000x128, .f32⟩
  | 120 => ⟨S256x128, .f32⟩
  | 121 => ⟨S1x128, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S100000x256, .f32⟩

abbrev hbmTy0_1 (i : Nat) : BufTy := match i % 128 with
  | 0 => ⟨S1000000, .i32⟩
  | 1 => ⟨S1000000x1, .i32⟩
  | 2 => ⟨S1000000x128, .f32⟩
  | 3 => ⟨S1000000x128, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000x128, .f32⟩
  | 13 => ⟨S1000000x128, .f32⟩
  | 14 => ⟨S1000000x128, .f32⟩
  | 15 => ⟨S1000000x128, .f32⟩
  | 16 => ⟨S_, .f32⟩
  | 17 => ⟨S1000000x128, .f32⟩
  | 18 => ⟨S1000000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call0_cst : Ref sig .tc := ⟨.hbm, 46, rfl⟩
abbrev main_call0_v0 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_cst : Ref sig .tc := ⟨.hbm, 78, rfl⟩
abbrev main_call1_v0 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_call2_cst : Ref sig .tc := ⟨.hbm, 108, rfl⟩
abbrev main_call2_v0 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c : Ref sig .tc := ⟨.hbm, 122, rfl⟩
abbrev main_v84 : Ref sig .tc := ⟨.hbm, 123, rfl⟩
abbrev main_v85 : Ref sig .tc := ⟨.hbm, 124, rfl⟩
abbrev main_c_14 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_15 : Ref sig .tc := ⟨.hbm, 132, rfl⟩
abbrev main_v92 : Ref sig .tc := ⟨.hbm, 133, rfl⟩
abbrev main_v93 : Ref sig .tc := ⟨.hbm, 134, rfl⟩
abbrev main_c_16 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_17 : Ref sig .tc := ⟨.hbm, 144, rfl⟩
abbrev main_v102 : Ref sig .tc := ⟨.hbm, 145, rfl⟩
abbrev main_v103 : Ref sig .tc := ⟨.hbm, 146, rfl⟩

abbrev nD : Nat := 1
abbrev τ : Topo := Topo.v7x

variable {F : FTy → Type} [FloatOps F]

class Facts₀ : Prop where
  reducesTo_S100000x256_S100000_d1 : S100000x256.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  reducesTo_S2000x256_S2000_d1 : S2000x256.ReducesTo [1] S2000
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x256_0_1 : S2000x1.BroadcastsInDim S2000x256 (![0, 1] : Fin 2 → Fin S2000x256.rank)
  bcast_S1x256_S2000x256_0_1 : S1x256.BroadcastsInDim S2000x256 (![0, 1] : Fin 2 → Fin S2000x256.rank)
  bcast_S_S2000x256 : S_.BroadcastsInDim S2000x256 (![] : Fin 0 → Fin S2000x256.rank)
  reducesTo_S1x256_S1_d1 : S1x256.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x256_0_1 : S1x1.BroadcastsInDim S1x256 (![0, 1] : Fin 2 → Fin S1x256.rank)
  bcast_S_S1x256 : S_.BroadcastsInDim S1x256 (![] : Fin 0 → Fin S1x256.rank)
  transposes_S128x128_S128x128_1_0 : S128x128.Transposes [1, 0] S128x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  transposes_S128x256_S256x128_1_0 : S128x256.Transposes [1, 0] S256x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x128 : S_.BroadcastsInDim S1000000x128 (![] : Fin 0 → Fin S1000000x128.rank)
  dot_S1000000x128_S128x128_S1000000x128_1_0_0_1_n_n_wf : DotDims.WF S1000000x128 S128x128 S1000000x128 [1] [0] [0] [1] [] []
  dot_S100000x256_S256x128_S100000x128_1_0_0_1_n_n_wf : DotDims.WF S100000x256 S256x128 S100000x128 [1] [0] [0] [1] [] []
  dot_S2000x256_S256x128_S2000x128_1_0_0_1_n_n_wf : DotDims.WF S2000x256 S256x128 S2000x128 [1] [0] [0] [1] [] []
  dot_S1x256_S256x128_S1x128_1_0_0_1_n_n_wf : DotDims.WF S1x256 S256x128 S1x128 [1] [0] [0] [1] [] []
  gather_S100000x128_S1000000x1_S1000000x128_1_0_n_n_0_1_1128_wf : GatherDims.WF S100000x128 S1000000x1 S1000000x128 [1] [0] [] [0] [] 1 ![1, 128]
  gather_S2000x128_S1000000x1_S1000000x128_1_0_n_n_0_1_1128_wf : GatherDims.WF S2000x128 S1000000x1 S1000000x128 [1] [0] [] [0] [] 1 ![1, 128]

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S2000x128_S1000000x1_S1000000x128_1_0_n_n_0_1_1128 : GatherDims S2000x128 S1000000x1 S1000000x128 where
  offsetDims := [1]
  collapsedSliceDims := [0]
  operandBatchingDims := []
  startIndicesBatchingDims := []
  startIndexMap := [0]
  indexVectorDim := 1
  sliceSizes := ![1, 128]
  wf := gather_S2000x128_S1000000x1_S1000000x128_1_0_n_n_0_1_1128_wf

class Facts : Prop extends Facts₀ where

variable [Facts]
-- ==== Proof.RowSpec.lean ====
/-
  The per-row mathematics both programs share, on the extended reals.

  For one row x of 256 entries, scale g and shift b:
    mean x   = (sum over k of x k) / 256
    var x    = (sum over k of (x k - mean x)^2) / 256
    lnRelu k = max ((x k - mean x) * rsqrt (var x + eps) * g k + b k) 0
  and one entry of a projected table is the dot product of that row with one row w of a weight matrix:
    tableEntry = sum over k of lnRelu k * w k.
  The constants 256 and eps are kept as the f32 words both programs carry (the same word on both sides is
  never evaluated). The big projection has no normalisation: a dot product plus a bias entry.
-/
import Idealize.ShloMosaic.PureOps.Ideal

noncomputable section

open scoped BigOperators

namespace Cert.RowSpec

open Idealize.ShloMosaic

/-- The divisor 256 as the f32 word 0x43800000. -/
def n256 : EReal := Ideal.ofBits .f32 0x43800000#32
/-- The variance's offset as the f32 word 0x3727C5AC (the f32 nearest 1e-5). -/
def eps : EReal := Ideal.ofBits .f32 0x3727C5AC#32

/-- A row's mean: its sum divided by 256. -/
def mean (x : Fin 256 → EReal) : EReal := Ideal.div (∑ k, x k) n256

/-- A row's variance about its mean: the sum of squared deviations divided by 256. -/
def var (x : Fin 256 → EReal) : EReal := Ideal.div (∑ k, (x k - mean x) * (x k - mean x)) n256

/-- One entry of the normalised, scaled, shifted and rectified row. -/
def lnRelu (x g b : Fin 256 → EReal) (k : Fin 256) : EReal :=
  max ((x k - mean x) * Ideal.rsqrt (var x + eps) * g k + b k) 0

/-- One entry of a projected table: the rectified normalised row against one weight row. -/
def tableEntry (x g b w : Fin 256 → EReal) : EReal := ∑ k, lnRelu x g b k * w k

/-- One entry of the big projection: a row of 128 values against one weight row, plus the bias entry. -/
def projEntry (x w : Fin 128 → EReal) (bias : EReal) : EReal := (∑ k, x k * w k) + bias

end Cert.RowSpec

end
-- ==== Proof.SpKernel.lean ====
import proofs.«420006_j33088428049090_2_alg».proof.Proof.Gen.KernelIdeal.Frame
import proofs.«420006_j33088428049090_2_alg».proof.Proof.RowSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-! # Region 0 at the ideal values: the scene-point table

The first kernel region normalises each row of the feature array (mean and variance over its 256 entries, the
reciprocal square root of the variance plus a constant), scales and shifts it by two vectors, rectifies it, and
multiplies it by the transposed weight. The grid has 20 points; point t handles rows 5000 t to 5000 t + 4999 and writes
the matching rows of the output. Read at one index, every operation of the body is an operation on extended reals, so
entry (r, q) of the output is the per-row formula of row r against row q of the weight. The steps: each layout
operation of the body at an index; the block product as a sum over the 256 contracted coordinates; the body's whole
arithmetic at an index; what the host operations before the region leave in the arrays it reads; the region's input
blocks as entries of those arrays; the block each point writes as a block of one table; the cover of the table by the
20 blocks. -/

namespace SpKernel

/-! ## Layout operations of the row statistics, read at an index -/

/-- A sum along the lanes of a 5000 x 256 block, at row p, is the sum over the row's 256 entries. -/
theorem laneSum_apply (v : FVec Ideal S5000x256 .f32) (hφ : FTy.f32 = FTy.f32 ∨ FTy.f32 = FTy.bf16)
    (hacc : (0x00000000#32 : BitVec 32) = 0x00000000#32) (p : Fin 5000) :
    multiReduction (F := Ideal) .add [1] S5000 v 0x00000000#32 reduces_S5000x256_S5000 hφ hacc (ix1 p)
      = ∑ k : Fin 256, v (ix2 p k) := by
  refine (Ideal.multiReduction_add_single v 0x00000000#32 reduces_S5000x256_S5000 hφ hacc (ix1 p)).trans ?_
  refine Finset.sum_congr rfl fun k _ => congrArg v ?_
  funext a
  match a with
  | ⟨0, _⟩ => rfl
  | ⟨1, _⟩ => rfl

/-- A column of row values [5000] viewed as [5000, 1] reads, at (p, u), the value of row p. -/
theorem column_apply {α : Type} (v : S5000.Idx → α) (p : Fin 5000) (u : Fin 1) :
    shapeCast S5000x1 v shapeCasts_S5000_S5000x1 (ix2 p u) = v (ix1 p) :=
  shapeCast_apply v shapeCasts_S5000_S5000x1 _ _ (by
    have hu : u.val = 0 := by omega
    rw [Shape.rowMajor_val_two, Shape.rowMajor_val_one]
    show p.val = p.val * 1 + u.val
    rw [hu, Nat.mul_one, Nat.add_zero])

/-- A column [5000, 1] broadcast along the lanes reads, at (p, k), the column's entry of row p. -/
theorem lanes_apply {α : Type} (v : S5000x1.Idx → α) (p : Fin 5000) (k : Fin 256) :
    broadcastTo S5000x256 v broadcasts_S5000x1_S5000x256 (ix2 p k) = v (ix2 p (0 : Fin 1)) := by
  refine broadcastTo_apply v broadcasts_S5000x1_S5000x256 (ix2 p k) (ix2 p (0 : Fin 1)) fun ax => ?_
  match ax with
  | ⟨0, _⟩ => rfl
  | ⟨1, _⟩ => rfl

/-- One row [1, 256] broadcast over the 5000 rows reads, at (p, k), the row's entry k. -/
theorem rows_apply {α : Type} (v : S1x256.Idx → α) (p : Fin 5000) (k : Fin 256) :
    broadcastTo S5000x256 v broadcasts_S1x256_S5000x256 (ix2 p k) = v (ix2 (0 : Fin 1) k) :=
  broadcastTo_1b_ab_apply v broadcasts_S1x256_S5000x256 p k

/-- The reciprocal square root reads through at an index. -/
theorem rsqrt_apply {s : Shape} {φ : FTy} (a : FVec Ideal s φ) (i : s.Idx) : rsqrt a i = Ideal.rsqrt (a i) := rfl

/-! ## The block product, read at an index -/

theorem dotL0 (i : S5000x128.Idx) (u : dot_S5000x256_S256x128_S5000x128_1_0_0_1_n_n.contr.Idx) :
    (dot_S5000x256_S256x128_S5000x128_1_0_0_1_n_n.lhsIdx i u 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem dotL1 (i : S5000x128.Idx) (u : dot_S5000x256_S256x128_S5000x128_1_0_0_1_n_n.contr.Idx) :
    (dot_S5000x256_S256x128_S5000x128_1_0_0_1_n_n.lhsIdx i u 1).val = (u ⟨0, by decide⟩).val :=
  dot_S5000x256_S256x128_S5000x128_1_0_0_1_n_n.lhsIdx_val_of_single rfl i u
theorem dotR0 (i : S5000x128.Idx) (u : dot_S5000x256_S256x128_S5000x128_1_0_0_1_n_n.contr.Idx) :
    (dot_S5000x256_S256x128_S5000x128_1_0_0_1_n_n.rhsIdx i u 0).val = (u ⟨0, by decide⟩).val :=
  dot_S5000x256_S256x128_S5000x128_1_0_0_1_n_n.rhsIdx_val_of_single rfl i u
theorem dotR1 (i : S5000x128.Idx) (u : dot_S5000x256_S256x128_S5000x128_1_0_0_1_n_n.contr.Idx) :
    (dot_S5000x256_S256x128_S5000x128_1_0_0_1_n_n.rhsIdx i u 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product of a 5000 x 256 block with a 256 x 128 block into the zero block, at (p, q): row p against column q. -/
theorem blockProduct_apply (a : FVec Ideal S5000x256 .bf16) (b : FVec Ideal S256x128 .bf16) (p : Fin 5000) (q : Fin 128) :
    matmul dot_S5000x256_S256x128_S5000x128_1_0_0_1_n_n none a b (constant (F := Ideal) S5000x128 .f32 0x00000000#32) (ix2 p q)
      = ∑ k : Fin 256, a (ix2 p k) * b (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun ax => Fin.ext (by
    match ax with
    | ⟨0, _⟩ => exact dotL0 _ _
    | ⟨1, _⟩ => exact (dotL1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun ax => Fin.ext (by
    match ax with
    | ⟨0, _⟩ => exact (dotR0 _ _).trans hk
    | ⟨1, _⟩ => exact dotR1 _ _)
  rw [el, er]

/-! ## The body's arithmetic at an index -/

/-- Entry (p, q) of what the body stores: the rectified normalised row p of the feature block against column q of the weight block. -/
theorem payload_apply (x0 : Vec Ideal S5000x256 .f32) (x1 x2 : Vec Ideal S1x256 .f32) (x3 : Vec Ideal S256x128 .f32)
    (p : Fin 5000) (q : Fin 128) :
    (k0_pay1 (F := Ideal) x0 x1 x2 x3) (ix2 p q)
      = Cert.RowSpec.tableEntry (fun k => x0 (ix2 p k)) (fun k => x1 (ix2 (0 : Fin 1) k)) (fun k => x2 (ix2 (0 : Fin 1) k)) (fun k => x3 (ix2 k q)) := by
  unfold k0_pay1
  -- the product, then every pointwise and layout operation down to the two lane sums
  simp only [blockProduct_apply, truncf_apply, maximumf_apply, addf_apply, mulf_apply, subf_apply, divf_apply, rsqrt_apply,
    broadcast_apply, lanes_apply, rows_apply, column_apply, shapeCast_self, Ideal.ofBits_def, Ideal.ofBits_zero_f32]
  -- the row's sum, and the sum of its squared deviations
  rw [laneSum_apply, laneSum_apply]
  -- the deviations inside the second sum, down to the row's sum again
  simp only [mulf_apply, subf_apply, divf_apply, broadcast_apply, lanes_apply, column_apply]
  rw [laneSum_apply]
  rfl

/-! ## The arrays the region reads, as the host operations before it leave them -/

/-- The features reach the region as launched: no host operation writes them. -/
theorem entry_features :
    (V1 (F := Ideal) m ρ c main_arg0 : S100000x256.Idx → EReal) = m ((c : Thread nD τ).loc main_arg0) := by
  show StableHlo.after hostOps0 (W0 m ρ c) (Proc.devRef .tc main_arg0) = _
  after_results

/-- The scale reaches the region as the launched vector viewed as one row. -/
theorem entry_scale :
    (V1 (F := Ideal) m ρ c main_v0 : S1x256.Idx → EReal)
      = shapeCast S1x256 (m ((c : Thread nD τ).loc main_arg6) : S256.Idx → EReal) shapeCasts_S256_S1x256 := by
  show StableHlo.after hostOps0 (W0 m ρ c) (Proc.devRef .tc main_v0) = _
  after_results
  rfl

/-- The shift reaches the region as the launched vector viewed as one row. -/
theorem entry_shift :
    (V1 (F := Ideal) m ρ c main_v1 : S1x256.Idx → EReal)
      = shapeCast S1x256 (m ((c : Thread nD τ).loc main_arg7) : S256.Idx → EReal) shapeCasts_S256_S1x256 := by
  show StableHlo.after hostOps0 (W0 m ρ c) (Proc.devRef .tc main_v1) = _
  after_results
  rfl

/-- The weight reaches the region transposed. -/
theorem entry_weight :
    (V1 (F := Ideal) m ρ c main_v7 : S256x128.Idx → EReal)
      = transpose S256x128 [1, 0] (m ((c : Thread nD τ).loc main_arg14) : S128x256.Idx → EReal) transposes_S128x256_S256x128_1_0 := by
  show StableHlo.after hostOps0 (W0 m ρ c) (Proc.devRef .tc main_v7) = _
  after_results

/-! ## The region's input blocks, read off those arrays -/

theorem zeroOffsets : (![0, 0] : Fin 2 → Nat) = fun _ => 0 := funext fun a => by fin_cases a <;> rfl

/-- The printed index maps, decided over the 20 grid points: the feature block and the output block of point t are
    block t along the rows; the scale, the shift and the weight are one block each. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section Blocks
variable (V : (c : Dev nD) → (b : Ref sig .tc) → Buf (Elt Ideal) ((c : Thread nD τ).loc b))

/-- Row p of point t's feature block is row 5000 t + p of the feature array. -/
theorem featBlock_apply (t : Fin cfg0.N) (p : Fin 5000) (k : Fin 256) (r : Fin 100000) (hr : r.val = t.val * 5000 + p.val) :
    (iblk0 V c 0 t : Vec Ideal S5000x256 .f32) (ix2 p k) = (V c main_arg0 : S100000x256.Idx → EReal) (ix2 r k) := by
  obtain ⟨e0, e1, -⟩ := blockIndex t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 256 + 1 * k.val = k.val; omega

/-- The scale's block is the whole one-row array. -/
theorem scaleBlock_apply (t : Fin cfg0.N) (u : Fin 1) (k : Fin 256) :
    (iblk0 V c 1 t : Vec Ideal S1x256 .f32) (ix2 u k) = (V c main_v0 : S1x256.Idx → EReal) (ix2 u k) := by
  obtain ⟨-, -, e0, e1, -⟩ := blockIndex t
  unfold iblk0
  rw [View.read_apply]
  show V c main_v0 _ = V c main_v0 _
  congr 1
  funext a
  apply Fin.ext
  match a with
  | ⟨0, _⟩ => show win0_1.index t (0 : Fin 2) * 1 + 1 * u.val = u.val; omega
  | ⟨1, _⟩ => show win0_1.index t (1 : Fin 2) * 256 + 1 * k.val = k.val; omega

/-- The shift's block is the whole one-row array. -/
theorem shiftBlock_apply (t : Fin cfg0.N) (u : Fin 1) (k : Fin 256) :
    (iblk0 V c 2 t : Vec Ideal S1x256 .f32) (ix2 u k) = (V c main_v1 : S1x256.Idx → EReal) (ix2 u k) := by
  obtain ⟨-, -, -, -, e0, e1, -⟩ := blockIndex t
  unfold iblk0
  rw [View.read_apply]
  show V c main_v1 _ = V c main_v1 _
  congr 1
  funext a
  apply Fin.ext
  match a with
  | ⟨0, _⟩ => show win0_2.index t (0 : Fin 2) * 1 + 1 * u.val = u.val; omega
  | ⟨1, _⟩ => show win0_2.index t (1 : Fin 2) * 256 + 1 * k.val = k.val; omega

/-- The weight's block is the whole transposed weight. -/
theorem weightBlock_apply (t : Fin cfg0.N) (k : Fin 256) (q : Fin 128) :
    (iblk0 V c 3 t : Vec Ideal S256x128 .f32) (ix2 k q) = (V c main_v7 : S256x128.Idx → EReal) (ix2 k q) := by
  obtain ⟨-, -, -, -, -, -, e0, e1, -⟩ := blockIndex t
  unfold iblk0
  rw [View.read_apply]
  show V c main_v7 _ = V c main_v7 _
  congr 1
  funext a
  apply Fin.ext
  match a with
  | ⟨0, _⟩ => show win0_3.index t (0 : Fin 2) * 256 + 1 * k.val = k.val; omega
  | ⟨1, _⟩ => show win0_3.index t (1 : Fin 2) * 128 + 1 * q.val = q.val; omega

end Blocks

/-! ## The table, and the block of it each point writes -/

/-- One entry of the scene-point table, of the launch arrays. -/
def spEntry (r : Fin 100000) (q : Fin 128) : EReal :=
  Cert.RowSpec.tableEntry (fun k => (m ((c : Thread nD τ).loc main_arg0)) (ix2 r k)) (fun k => (m ((c : Thread nD τ).loc main_arg6)) (ix1 k)) (fun k => (m ((c : Thread nD τ).loc main_arg7)) (ix1 k)) (fun k => (m ((c : Thread nD τ).loc main_arg14)) (ix2 q k))

/-- The whole table as one function of the index. -/
def spTable : S100000x128.Idx → EReal := fun i => spEntry m c ⟨(i 0).val, idx2_lt0 i⟩ ⟨(i 1).val, idx2_lt1 i⟩

/-- What point t writes back is block t of the table: rows 5000 t to 5000 t + 4999. -/
theorem flushed_eq (t : Fin cfg0.N) :
    (dat0 (V1 m ρ) c).flushed 4 t = ((cfg0.win 4).blk t).view.read (Elt Ideal) (spTable m c) := by
  obtain ⟨-, -, -, -, -, -, -, -, e8, e9⟩ := blockIndex t
  have ht : t.val < 20 := lt_of_lt_of_eq t.isLt N_0
  show (cfg0.win 4).cut (grid0.coords t) ((dat0 (V1 m ρ) c).after 4 t) = _
  rw [after0_4]
  unfold out0_4
  rw [View.canon_unit_zero zeroOffsets]
  simp only [View.ld_unit_zero (S := S5000x256) zeroOffsets, View.ld_unit_zero (S := S1x256) zeroOffsets,
    View.ld_unit_zero (S := S256x128) zeroOffsets]
  funext j
  have hj0 : (j 0).val < 5000 := (j 0).isLt
  have hj1 : (j 1).val < 128 := (j 1).isLt
  have hr : t.val * 5000 + (j 0).val < 100000 := by omega
  -- the index inside the block, and the index of the array under it, by coordinates
  have hx : ((cfg0.win 4).xinj (grid0.coords t) j : S5000x128.Idx) = ix2 (⟨(j 0).val, hj0⟩ : Fin 5000) (⟨(j 1).val, hj1⟩ : Fin 128) :=
    funext fun a => Fin.ext (by match a with | ⟨0, _⟩ => rfl | ⟨1, _⟩ => rfl)
  have he : (((cfg0.win 4).blk t).view.emb j : S100000x128.Idx)
      = ix2 (⟨t.val * 5000 + (j 0).val, hr⟩ : Fin 100000) (⟨(j 1).val, hj1⟩ : Fin 128) :=
    funext fun a => Fin.ext (by
      match a with
      | ⟨0, _⟩ => show win0_4.index t (0 : Fin 2) * 5000 + 1 * (j 0).val = t.val * 5000 + (j 0).val; omega
      | ⟨1, _⟩ => show win0_4.index t (1 : Fin 2) * 128 + 1 * (j 1).val = (j 1).val; omega)
  rw [View.read_apply]
  show k0_pay1 (F := Ideal) (iblk0 (V1 m ρ) c 0 t) (iblk0 (V1 m ρ) c 1 t) (iblk0 (V1 m ρ) c 2 t) (iblk0 (V1 m ρ) c 3 t)
      ((cfg0.win 4).xinj (grid0.coords t) j) = spTable m c (((cfg0.win 4).blk t).view.emb j)
  refine (congrArg (k0_pay1 (F := Ideal) (iblk0 (V1 m ρ) c 0 t) (iblk0 (V1 m ρ) c 1 t) (iblk0 (V1 m ρ) c 2 t) (iblk0 (V1 m ρ) c 3 t)) hx).trans ?_
  refine (payload_apply (iblk0 (V1 m ρ) c 0 t) (iblk0 (V1 m ρ) c 1 t) (iblk0 (V1 m ρ) c 2 t) (iblk0 (V1 m ρ) c 3 t)
    ⟨(j 0).val, hj0⟩ ⟨(j 1).val, hj1⟩).trans ?_
  rw [he]
  show _ = spEntry m c ⟨t.val * 5000 + (j 0).val, hr⟩ ⟨(j 1).val, hj1⟩
  unfold spEntry
  congr 1
  · funext k
    exact (featBlock_apply c (V1 m ρ) t ⟨(j 0).val, hj0⟩ k ⟨t.val * 5000 + (j 0).val, hr⟩ rfl).trans
      (congrFun (entry_features m ρ c) _)
  · funext k
    exact (scaleBlock_apply c (V1 m ρ) t 0 k).trans
      ((congrFun (entry_scale m ρ c) (ix2 (0 : Fin 1) k)).trans (shapeCast_a_1a_apply _ _ 0 k))
  · funext k
    exact (shiftBlock_apply c (V1 m ρ) t 0 k).trans
      ((congrFun (entry_shift m ρ c) (ix2 (0 : Fin 1) k)).trans (shapeCast_a_1a_apply _ _ 0 k))
  · funext k
    exact (weightBlock_apply c (V1 m ρ) t k ⟨(j 1).val, hj1⟩).trans
      ((congrFun (entry_weight m ρ c) (ix2 k (⟨(j 1).val, hj1⟩ : Fin 128))).trans (transpose_ix2_apply _ _ k ⟨(j 1).val, hj1⟩))

/-- Every row of the table lies in the block of the point r / 5000. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, -, -, -, -, e8, e9⟩ := blockIndex ⟨(i 0).val / 5000, hlt⟩
  refine ⟨⟨(i 0).val / 5000, hlt⟩, flush0_4 _, ?_⟩
  show i ∈ ((View.whole main_v11).slice (win0_4.rect ⟨(i 0).val / 5000, hlt⟩)).set
  rw [View.set_slice_whole, Rect.mem_set_unit]
  intro a
  match a with
  | ⟨0, _⟩ =>
    show win0_4.index ⟨(i 0).val / 5000, hlt⟩ (0 : Fin 2) * 5000 ≤ (i 0).val
      ∧ (i 0).val < win0_4.index ⟨(i 0).val / 5000, hlt⟩ (0 : Fin 2) * 5000 + 5000
    rw [e8]; show (i 0).val / 5000 * 5000 ≤ (i 0).val ∧ (i 0).val < (i 0).val / 5000 * 5000 + 5000; omega
  | ⟨1, _⟩ =>
    show win0_4.index ⟨(i 0).val / 5000, hlt⟩ (1 : Fin 2) * 128 ≤ (i 1).val
      ∧ (i 1).val < win0_4.index ⟨(i 0).val / 5000, hlt⟩ (1 : Fin 2) * 128 + 128
    rw [e9]; omega

/-- So the region leaves the table in its output array. -/
theorem table_eq : (dat0 (V1 m ρ) c).arrAt 4 cfg0.N = spTable m c :=
  (dat0 (V1 m ρ) c).arrAt_eq_of_cover 4 (spTable m c) (fun t _ => flushed_eq m ρ c t) covered

end SpKernel

/-- Row r of the scene-point table after region 0: the rectified normalised row r of scenepoint_features against row q of W_sp. -/
theorem sp_kernel (r : Fin 100000) (q : Fin 128) :
    (V2 (F := Ideal) m ρ c main_v11 : S100000x128.Idx → EReal) (ix2 r q)
      = Cert.RowSpec.tableEntry (fun k => (m ((c : Thread nD τ).loc main_arg0)) (ix2 r k)) (fun k => (m ((c : Thread nD τ).loc main_arg6)) (ix1 k)) (fun k => (m ((c : Thread nD τ).loc main_arg7)) (ix1 k)) (fun k => (m ((c : Thread nD τ).loc main_arg14)) (ix2 q k)) := by
  have h : (V2 (F := Ideal) m ρ c main_v11 : S100000x128.Idx → EReal) = SpKernel.spTable m c :=
    (hF0 (F := Ideal) m ρ c 4).symm.trans (SpKernel.table_eq m ρ c)
  exact congrFun h (ix2 r q)

end Cert.Bridge

end
-- ==== Proof.VwKernel.lean ====
import proofs.«420006_j33088428049090_2_alg».proof.Proof.Gen.KernelIdeal.Frame
import proofs.«420006_j33088428049090_2_alg».proof.Proof.RowSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

namespace VwKernel

/-! ## The payload of the first store, read at an index

The body's arithmetic on one [2000,256] block `x`, scale row `g`, shift row `b` and a [256,128] weight block `w`:
row sums, the mean, the squared deviations' row sums, the variance, the normalised, scaled, shifted and rectified
row, and its product with the weight block. Each non-pointwise step is read at an index by a small lemma. -/

/-- A lane sum of a [2000,256] vector at row `p` is the sum over the 256 lanes. -/
theorem rowSum_apply (src : FVec Ideal S2000x256 .f32) (hφ : FTy.f32 = FTy.f32 ∨ FTy.f32 = FTy.bf16)
    (hacc : (0x00000000#32 : BitVec 32) = 0x00000000#32) (p : Fin 2000) :
    multiReduction (F := Ideal) .add [1] S2000 src 0x00000000#32 reduces_S2000x256_S2000 hφ hacc (ix1 p)
      = ∑ k : Fin 256, src (ix2 p k) := by
  refine (Ideal.multiReduction_add_single src 0x00000000#32 reduces_S2000x256_S2000 hφ hacc (ix1 p)).trans ?_
  refine Finset.sum_congr rfl fun k _ => congrArg src ?_
  funext a
  match a with
  | ⟨0, _⟩ => rfl
  | ⟨1, _⟩ => rfl

/-- A [2000] vector cast to a [2000,1] column reads, at `(p, u)`, the vector at `p`. -/
theorem colCast_apply {α : Type} (v : S2000.Idx → α) (p : Fin 2000) (u : Fin 1) :
    shapeCast S2000x1 v shapeCasts_S2000_S2000x1 (ix2 p u) = v (ix1 p) :=
  shapeCast_apply v shapeCasts_S2000_S2000x1 _ _ (by
    have hu : u.val = 0 := by omega
    rw [Shape.rowMajor_val_two, Shape.rowMajor_val_one]
    show p.val = p.val * 1 + u.val
    rw [hu, Nat.mul_one, Nat.add_zero])

/-- A [2000,1] column broadcast along the lanes reads, at `(p, k)`, the column at row `p`. -/
theorem colBcast_apply {α : Type} (v : S2000x1.Idx → α) (p : Fin 2000) (k : Fin 256) :
    broadcastTo S2000x256 v broadcasts_S2000x1_S2000x256 (ix2 p k) = v (ix2 p (0 : Fin 1)) := by
  refine broadcastTo_apply v broadcasts_S2000x1_S2000x256 (ix2 p k) (ix2 p (0 : Fin 1)) fun ax => ?_
  match ax with
  | ⟨0, _⟩ => rfl
  | ⟨1, _⟩ => rfl

/-- A [1,256] row broadcast over the 2000 rows reads, at `(p, k)`, the row at lane `k`. -/
theorem rowBcast_apply {α : Type} (v : S1x256.Idx → α) (p : Fin 2000) (k : Fin 256) :
    broadcastTo S2000x256 v broadcasts_S1x256_S2000x256 (ix2 p k) = v (ix2 (0 : Fin 1) k) :=
  broadcastTo_1b_ab_apply v broadcasts_S1x256_S2000x256 p k

/-- The reciprocal square root at an index is that of the element. -/
theorem rsqrt_apply {s : Shape} {φ : FTy} (a : FVec Ideal s φ) (i : s.Idx) : rsqrt a i = Ideal.rsqrt (a i) := rfl

/-! ### The matrix product into the zero splat -/

theorem lhs_dot_0 (i : S2000x128.Idx) (k : dot_S2000x256_S256x128_S2000x128_1_0_0_1_n_n.contr.Idx) :
    (dot_S2000x256_S256x128_S2000x128_1_0_0_1_n_n.lhsIdx i k 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_dot_1 (i : S2000x128.Idx) (k : dot_S2000x256_S256x128_S2000x128_1_0_0_1_n_n.contr.Idx) :
    (dot_S2000x256_S256x128_S2000x128_1_0_0_1_n_n.lhsIdx i k 1).val = (k ⟨0, by decide⟩).val :=
  dot_S2000x256_S256x128_S2000x128_1_0_0_1_n_n.lhsIdx_val_of_single rfl i k
theorem rhs_dot_0 (i : S2000x128.Idx) (k : dot_S2000x256_S256x128_S2000x128_1_0_0_1_n_n.contr.Idx) :
    (dot_S2000x256_S256x128_S2000x128_1_0_0_1_n_n.rhsIdx i k 0).val = (k ⟨0, by decide⟩).val :=
  dot_S2000x256_S256x128_S2000x128_1_0_0_1_n_n.rhsIdx_val_of_single rfl i k
theorem rhs_dot_1 (i : S2000x128.Idx) (k : dot_S2000x256_S256x128_S2000x128_1_0_0_1_n_n.contr.Idx) :
    (dot_S2000x256_S256x128_S2000x128_1_0_0_1_n_n.rhsIdx i k 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The [2000,256] by [256,128] product accumulated into zero reads, at `(p, q)`, the dot product of row `p` of the
    left operand with column `q` of the right one. -/
theorem matmulZero_apply {φ₁ φ₂ : FTy} (a : FVec Ideal S2000x256 φ₁) (b : FVec Ideal S256x128 φ₂) (p : Fin 2000) (q : Fin 128) :
    matmul dot_S2000x256_S256x128_S2000x128_1_0_0_1_n_n none a b (constant (F := Ideal) S2000x128 .f32 0x00000000#32) (ix2 p q)
      = ∑ k : Fin 256, a (ix2 p k) * b (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-! ### The whole payload -/

/-- THE PAYLOAD AT `(p, q)`: the rectified normalised row `p` of the block against column `q` of the weight block. -/
theorem pay_apply (x0 : Vec Ideal S2000x256 .f32) (x1 x3 : Vec Ideal S1x256 .f32) (x30 : Vec Ideal S256x128 .f32)
    (p : Fin 2000) (q : Fin 128) :
    (k1_pay2 (F := Ideal) x0 x1 x3 x30 : S2000x128.Idx → EReal) (ix2 p q)
      = Cert.RowSpec.tableEntry (fun k => x0 (ix2 p k)) (fun k => x1 (ix2 (0 : Fin 1) k))
          (fun k => x3 (ix2 (0 : Fin 1) k)) (fun k => x30 (ix2 k q)) := by
  unfold k1_pay2
  dsimp only
  refine (matmulZero_apply _ _ p q).trans ?_
  unfold Cert.RowSpec.tableEntry
  refine Finset.sum_congr rfl fun k _ => ?_
  simp only [truncf_apply, maximumf_apply, addf_apply, mulf_apply, subf_apply, divf_apply, rsqrt_apply, broadcast_apply,
    shapeCast_self, colBcast_apply, rowBcast_apply, colCast_apply, Ideal.ofBits_def, Ideal.ofBits_zero_f32]
  rw [rowSum_apply x0 _ _ p, rowSum_apply _ _ _ p]
  simp only [mulf_apply, subf_apply, divf_apply, broadcast_apply, colBcast_apply, colCast_apply]
  rw [rowSum_apply x0 _ _ p]
  simp only [Cert.RowSpec.lnRelu, Cert.RowSpec.mean, Cert.RowSpec.var, Cert.RowSpec.n256, Cert.RowSpec.eps]

/-! ## From the block to the array

Region 1's grid has one point, and every window of it is one whole block at block index (0, 0): a window's block read
at an index is its array read there, and the one write-back of window 8 covers the output array. -/

theorem hz : (![0, 0] : Fin 2 → Nat) = fun _ => 0 := funext fun a => by fin_cases a <;> rfl

/-- The printed index maps of the windows this output reads and writes, decided over the grid: block (0, 0). -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_8.index t (0 : Fin 2) = 0 ∧ win1_8.index t (1 : Fin 2) = 0 :=
  (by decide +kernel : ∀ t : Fin grid1.N, _)

section Region
variable (V : (c : Dev nD) → (b : Ref sig .tc) → Buf (Elt Ideal) ((c : Thread nD τ).loc b))

/-- Window 0's block is the array `view_features` as the region finds it. -/
theorem iblk_0 (t : Fin cfg1.N) :
    (iblk1 V c 0 t : Vec Ideal S2000x256 .f32) = (V c main_arg1 : S2000x256.Idx → EReal) := by
  obtain ⟨e0, e1, -⟩ := idx_facts t
  funext y
  unfold iblk1
  rw [View.read_apply]
  show V c main_arg1 _ = V c main_arg1 y
  congr 1
  funext a
  apply Fin.ext
  match a with
  | ⟨0, _⟩ => show win1_0.index t (0 : Fin 2) * 2000 + 1 * (y 0).val = (y 0).val; rw [e0]; omega
  | ⟨1, _⟩ => show win1_0.index t (1 : Fin 2) * 256 + 1 * (y 1).val = (y 1).val; rw [e1]; omega

/-- Window 1's block is the scale row as the region finds it. -/
theorem iblk_1 (t : Fin cfg1.N) :
    (iblk1 V c 1 t : Vec Ideal S1x256 .f32) = (V c main_v2 : S1x256.Idx → EReal) := by
  obtain ⟨-, -, e0, e1, -⟩ := idx_facts t
  funext y
  unfold iblk1
  rw [View.read_apply]
  show V c main_v2 _ = V c main_v2 y
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 256 + 1 * (y 1).val = (y 1).val; rw [e1]; omega

/-- Window 2's block is the shift row as the region finds it. -/
theorem iblk_2 (t : Fin cfg1.N) :
    (iblk1 V c 2 t : Vec Ideal S1x256 .f32) = (V c main_v3 : S1x256.Idx → EReal) := by
  obtain ⟨-, -, -, -, e0, e1, -⟩ := idx_facts t
  funext y
  unfold iblk1
  rw [View.read_apply]
  show V c main_v3 _ = V c main_v3 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- Window 3's block is the transposed weight as the region finds it. -/
theorem iblk_3 (t : Fin cfg1.N) :
    (iblk1 V c 3 t : Vec Ideal S256x128 .f32) = (V c main_v8 : S256x128.Idx → EReal) := by
  obtain ⟨-, -, -, -, -, -, e0, e1, -⟩ := idx_facts t
  funext y
  unfold iblk1
  rw [View.read_apply]
  show V c main_v8 _ = V c main_v8 y
  congr 1
  funext a
  apply Fin.ext
  match a with
  | ⟨0, _⟩ => show win1_3.index t (0 : Fin 2) * 256 + 1 * (y 0).val = (y 0).val; rw [e0]; omega
  | ⟨1, _⟩ => show win1_3.index t (1 : Fin 2) * 128 + 1 * (y 1).val = (y 1).val; rw [e1]; omega

/-- What the view table holds after region 1, as one function of the region's entry contents: the payload of the four
    whole arrays. -/
def table : Buf (Elt Ideal) ((c : Thread nD τ).loc main_v12_0) :=
  (k1_pay2 (F := Ideal) (V c main_arg1) (V c main_v2) (V c main_v3) (V c main_v8) : S2000x128.Idx → EReal)

/-- The one point writes back its block of `table`. -/
theorem flushed_eq (t : Fin cfg1.N) :
    (dat1 V c).flushed 8 t = ((cfg1.win 8).blk t).view.read (Elt Ideal) (table c V) := by
  show (cfg1.win 8).cut (grid1.coords t) ((dat1 V c).after 8 t) = _
  rw [after1_8]
  unfold out1_8
  rw [View.canon_unit_zero hz]
  simp only [View.ld_unit_zero (S := S2000x256) hz, View.ld_unit_zero (S := S1x256) hz, View.ld_unit_zero (S := S256x128) hz]
  rw [iblk_0 c V t, iblk_1 c V t, iblk_2 c V t, iblk_3 c V t]
  obtain ⟨-, -, -, -, -, -, -, -, e0, e1⟩ := idx_facts t
  funext j
  show table c V _ = table c V (((cfg1.win 8).blk t).view.emb j)
  congr 1
  funext a
  apply Fin.ext
  match a with
  | ⟨0, _⟩ => show (j 0).val = win1_8.index t (0 : Fin 2) * 2000 + 1 * (j 0).val; rw [e0]; omega
  | ⟨1, _⟩ => show (j 1).val = win1_8.index t (1 : Fin 2) * 128 + 1 * (j 1).val; rw [e1]; omega

/-- The one block covers the output array. -/
theorem covered (i : S2000x128.Idx) :
    ∃ t : Fin cfg1.N, (cfg1.win 8).flush t = true ∧ i ∈ ((cfg1.win 8).blk t).view.set := by
  obtain ⟨-, -, -, -, -, -, -, -, e0, e1⟩ := idx_facts t1_0
  refine ⟨t1_0, flush1_8 t1_0, ?_⟩
  show i ∈ ((View.whole main_v12_0).slice (win1_8.rect t1_0)).set
  rw [View.set_slice_whole, Rect.mem_set_unit]
  intro a
  have h0 : (i 0).val < 2000 := (i 0).isLt
  have h1 : (i 1).val < 128 := (i 1).isLt
  match a with
  | ⟨0, _⟩ => show win1_8.index t1_0 (0 : Fin 2) * 2000 ≤ (i 0).val ∧ (i 0).val < win1_8.index t1_0 (0 : Fin 2) * 2000 + 2000; rw [e0]; omega
  | ⟨1, _⟩ => show win1_8.index t1_0 (1 : Fin 2) * 128 ≤ (i 1).val ∧ (i 1).val < win1_8.index t1_0 (1 : Fin 2) * 128 + 128; rw [e1]; omega

/-- THE ARRAY after region 1's run: `table`. -/
theorem final : (dat1 V c).arrAt 8 cfg1.N = table c V :=
  (dat1 V c).arrAt_eq_of_cover 8 (table c V) (fun t _ => flushed_eq c V t) (covered)

end Region

/-! ## The region's entry contents: the launch memory through the host prefix

Region 1 is entered at the contents region 0 leaves; region 0 writes none of this output's inputs, so each is what the
host prefix left: `view_features` as launched, the scale and shift as rows, the weight transposed. -/

/-- `view_features` enters region 1 as launched. -/
theorem entry_x : (V2 m ρ c main_arg1 : S2000x256.Idx → EReal) = m ((c : Thread nD τ).loc main_arg1) := by
  refine (hrest0 m ρ c main_arg1 (by decide)).trans ?_
  show StableHlo.after hostOps0 (W0 m ρ c) (Proc.devRef .tc main_arg1) = _
  after_results

/-- The scale enters region 1 as the launched vector cast to a row. -/
theorem entry_g : (V2 m ρ c main_v2 : S1x256.Idx → EReal)
    = shapeCast S1x256 (m ((c : Thread nD τ).loc main_arg8) : S256.Idx → EReal) shapeCasts_S256_S1x256 := by
  refine (hrest0 m ρ c main_v2 (by decide)).trans ?_
  show StableHlo.after hostOps0 (W0 m ρ c) (Proc.devRef .tc main_v2) = _
  after_results
  rfl

/-- The shift enters region 1 as the launched vector cast to a row. -/
theorem entry_b : (V2 m ρ c main_v3 : S1x256.Idx → EReal)
    = shapeCast S1x256 (m ((c : Thread nD τ).loc main_arg9) : S256.Idx → EReal) shapeCasts_S256_S1x256 := by
  refine (hrest0 m ρ c main_v3 (by decide)).trans ?_
  show StableHlo.after hostOps0 (W0 m ρ c) (Proc.devRef .tc main_v3) = _
  after_results
  rfl

/-- The weight enters region 1 as the launched matrix transposed. -/
theorem entry_w : (V2 m ρ c main_v8 : S256x128.Idx → EReal)
    = transpose S256x128 [1, 0] (m ((c : Thread nD τ).loc main_arg15) : S128x256.Idx → EReal) transposes_S128x256_S256x128_1_0 := by
  refine (hrest0 m ρ c main_v8 (by decide)).trans ?_
  show StableHlo.after hostOps0 (W0 m ρ c) (Proc.devRef .tc main_v8) = _
  after_results

end VwKernel

open VwKernel

/-! ## The view table after region 1 -/

/-- Row r of the view table after region 1: the rectified normalised row r of view_features against row q of W_view. -/
theorem vw_kernel (r : Fin 2000) (q : Fin 128) :
    (V3 (F := Ideal) m ρ c main_v12_0 : S2000x128.Idx → EReal) (ix2 r q)
      = Cert.RowSpec.tableEntry (fun k => (m ((c : Thread nD τ).loc main_arg1)) (ix2 r k)) (fun k => (m ((c : Thread nD τ).loc main_arg8)) (ix1 k)) (fun k => (m ((c : Thread nD τ).loc main_arg9)) (ix1 k)) (fun k => (m ((c : Thread nD τ).loc main_arg15)) (ix2 q k)) := by
  have h8 : (V3 (F := Ideal) m ρ c main_v12_0 : S2000x128.Idx → EReal) = table c (V2 m ρ) :=
    (hF1 m ρ c 8).symm.trans (final c (V2 m ρ))
  refine (congrFun h8 (ix2 r q)).trans ?_
  unfold table
  refine (pay_apply _ _ _ _ r q).trans ?_
  rw [entry_x m ρ c, entry_g m ρ c, entry_b m ρ c, entry_w m ρ c]
  congr 1 <;> funext k
  · exact shapeCast_a_1a_apply _ _ 0 k
  · exact shapeCast_a_1a_apply _ _ 0 k
  · exact transpose_ix2_apply _ _ k q

end Cert.Bridge

end
-- ==== Proof.GlKernel.lean ====
import proofs.«420006_j33088428049090_2_alg».proof.Proof.Gen.KernelIdeal.Frame
import proofs.«420006_j33088428049090_2_alg».proof.Proof.RowSpec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

open scoped BigOperators

/-! ## The contraction's operand indices, axis by axis -/

theorem glk_lhs_0 (i : S1x128.Idx) (q : dot_S1x256_S256x128_S1x128_1_0_0_1_n_n.contr.Idx) :
    (dot_S1x256_S256x128_S1x128_1_0_0_1_n_n.lhsIdx i q 0).val = (i 0).val := by
  unfold DotDims.lhsIdx
  rw [dif_neg (show ¬(0 : Fin S1x256.rank) ∈ dot_S1x256_S256x128_S1x128_1_0_0_1_n_n.lhsBatch by decide), dif_pos (show (0 : Fin S1x256.rank) ∈ dot_S1x256_S256x128_S1x128_1_0_0_1_n_n.lhsNonContracting by decide)]
  rfl
theorem glk_lhs_1 (i : S1x128.Idx) (q : dot_S1x256_S256x128_S1x128_1_0_0_1_n_n.contr.Idx) :
    (dot_S1x256_S256x128_S1x128_1_0_0_1_n_n.lhsIdx i q 1).val = (q ⟨0, by decide⟩).val :=
  dot_S1x256_S256x128_S1x128_1_0_0_1_n_n.lhsIdx_val_of_single rfl i q
theorem glk_rhs_0 (i : S1x128.Idx) (q : dot_S1x256_S256x128_S1x128_1_0_0_1_n_n.contr.Idx) :
    (dot_S1x256_S256x128_S1x128_1_0_0_1_n_n.rhsIdx i q 0).val = (q ⟨0, by decide⟩).val :=
  dot_S1x256_S256x128_S1x128_1_0_0_1_n_n.rhsIdx_val_of_single rfl i q
theorem glk_rhs_1 (i : S1x128.Idx) (q : dot_S1x256_S256x128_S1x128_1_0_0_1_n_n.contr.Idx) :
    (dot_S1x256_S256x128_S1x128_1_0_0_1_n_n.rhsIdx i q 1).val = (i 1).val := by
  unfold DotDims.rhsIdx
  rw [dif_neg (show ¬(1 : Fin S256x128.rank) ∈ dot_S1x256_S256x128_S1x128_1_0_0_1_n_n.rhsBatch by decide), dif_pos (show (1 : Fin S256x128.rank) ∈ dot_S1x256_S256x128_S1x128_1_0_0_1_n_n.rhsNonContracting by decide)]
  rfl

/-! ## The three operations of the body that are not pointwise -/

/-- The lane sum of the one row: at its one result index, the sum of the row's 256 entries. -/
theorem glk_rowsum (src : FVec Ideal S1x256 .f32) (h : S1x256.Reduces [1] S1) (hφ : FKind.Formats .f32)
    (hacc : (0x00000000#32 : BitVec 32) = 0x00000000#32) :
    multiReduction (F := Ideal) .add [1] S1 src 0x00000000#32 h hφ hacc
      = fun _ => ∑ k : Fin 256, src (ix2 (0 : Fin 1) k) := by
  funext j
  refine (Ideal.multiReduction_add_single src 0x00000000#32 h hφ hacc j).trans ?_
  refine Finset.sum_congr rfl fun k _ => congrArg src (funext fun a => Fin.ext ?_)
  match a with
  | ⟨0, _⟩ =>
    have h0 : (j 0).val < 1 := (j 0).isLt
    show (j 0).val = 0
    omega
  | ⟨1, _⟩ => rfl

/-- The one-entry vector seen as a one-by-one matrix holds that entry. -/
theorem glk_cast_1_1x1 (v : FVec Ideal S1 .f32) (h : S1.ShapeCasts S1x1) :
    shapeCast S1x1 v h = fun _ => v (ix1 (0 : Fin 1)) := by
  funext j
  obtain ⟨u, i, rfl⟩ : ∃ (u : Fin 1) (i : Fin 1), j = ix2 u i := ⟨j 0, j 1, eq_ix2 j⟩
  obtain rfl : i = 0 := Subsingleton.elim _ _
  exact shapeCast_a_1a_apply v h u 0

/-- The one-by-one matrix spread along the row holds its entry everywhere. -/
theorem glk_spread (v : FVec Ideal S1x1 .f32) (h : S1x1.Broadcasts S1x256) :
    broadcastTo S1x256 v h = fun _ => v (ix2 (0 : Fin 1) (0 : Fin 1)) := by
  funext j
  refine broadcastTo_apply v h j (ix2 (0 : Fin 1) (0 : Fin 1)) fun a => ?_
  match a with
  | ⟨0, _⟩ => rfl
  | ⟨1, _⟩ => rfl

/-! ## The body's value at an index -/

/-- The second store of the small projection, at column q: the rectified normalised row against column q of the
    weight block. The mean and the variance are lane sums divided by the word 256; the normalised row is scaled,
    shifted and rectified entry by entry; the product into the zero accumulator is the sum over the 256 lanes. -/
theorem glk_payload (x g b : Vec Ideal S1x256 .f32) (w : Vec Ideal S256x128 .f32) (p : Fin 1) (q : Fin 128) :
    (k1_pay1 (F := Ideal) x g b w : S1x128.Idx → EReal) (ix2 p q)
      = Cert.RowSpec.tableEntry (fun k => x (ix2 (0 : Fin 1) k)) (fun k => g (ix2 (0 : Fin 1) k)) (fun k => b (ix2 (0 : Fin 1) k)) (fun k => w (ix2 k q)) := by
  obtain rfl : p = 0 := Subsingleton.elim _ _
  unfold k1_pay1
  simp only [matmul]
  rw [Ideal.matmul_constant_zero_apply, ← Equiv.sum_comp (contrEquiv1 dot_S1x256_S256x128_S1x128_1_0_0_1_n_n 256 rfl rfl).symm]
  unfold Cert.RowSpec.tableEntry
  refine Finset.sum_congr rfl fun k _ => ?_
  have hk := contrEquiv1_symm_val dot_S1x256_S256x128_S1x128_1_0_0_1_n_n 256 rfl rfl k
  have el : dot_S1x256_S256x128_S1x128_1_0_0_1_n_n.lhsIdx (ix2 (0 : Fin 1) q) ((contrEquiv1 dot_S1x256_S256x128_S1x128_1_0_0_1_n_n 256 rfl rfl).symm k) = ix2 (0 : Fin 1) k := funext fun a => Fin.ext (by
    match a with
    | ⟨0, _⟩ => exact glk_lhs_0 _ _
    | ⟨1, _⟩ => exact (glk_lhs_1 _ _).trans hk)
  have er : dot_S1x256_S256x128_S1x128_1_0_0_1_n_n.rhsIdx (ix2 (0 : Fin 1) q) ((contrEquiv1 dot_S1x256_S256x128_S1x128_1_0_0_1_n_n 256 rfl rfl).symm k) = ix2 k q := funext fun a => Fin.ext (by
    match a with
    | ⟨0, _⟩ => exact (glk_rhs_0 _ _).trans hk
    | ⟨1, _⟩ => exact glk_rhs_1 _ _)
  rw [el, er]
  simp only [glk_cast_1_1x1, glk_spread, shapeCast_self]
  rw [glk_rowsum x, glk_rowsum]
  unfold Cert.RowSpec.lnRelu Cert.RowSpec.var Cert.RowSpec.mean Cert.RowSpec.n256 Cert.RowSpec.eps
  show max _ (Ideal.ofBits .f32 0x00000000#32) * _ = _
  rw [Ideal.ofBits_zero_f32]
  rfl

/-! ## From the one block to the array

Region 1 runs on a grid of one point and every window is one whole block at block index (0, 0): a block's coordinate
is index × size + 1 × the coordinate inside the block, so each block is its array and the one write-back covers the
output array. -/

theorem glk_hz : (![0, 0] : Fin 2 → Nat) = fun _ => 0 :=
  funext fun a => match a with | ⟨0, _⟩ => rfl | ⟨1, _⟩ => rfl

/-- The printed index maps of the windows this output reads and of its own window, decided over the grid: all zero. -/
theorem glk_idx_facts : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_9.index t (0 : Fin 2) = 0 ∧ win1_9.index t (1 : Fin 2) = 0 :=
  (by decide +kernel : ∀ t : Fin grid1.N, _)

/-- The row's block is the row. -/
theorem glk_iblk4 (V : (c : Dev nD) → (b : Ref sig .tc) → Buf (Elt Ideal) ((c : Thread nD τ).loc b)) (c : Dev nD) (t : Fin cfg1.N) :
    (iblk1 V c 4 t : S1x256.Idx → EReal) = (V c main_arg2 : S1x256.Idx → EReal) := by
  obtain ⟨e0, e1, -⟩ := glk_idx_facts t
  funext y
  unfold iblk1
  rw [View.read_apply]
  show (V c main_arg2 : S1x256.Idx → EReal) _ = (V c main_arg2 : S1x256.Idx → EReal) y
  refine congrArg (V c main_arg2 : S1x256.Idx → EReal) (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- The scale's block is the scale row. -/
theorem glk_iblk5 (V : (c : Dev nD) → (b : Ref sig .tc) → Buf (Elt Ideal) ((c : Thread nD τ).loc b)) (c : Dev nD) (t : Fin cfg1.N) :
    (iblk1 V c 5 t : S1x256.Idx → EReal) = (V c main_v4 : S1x256.Idx → EReal) := by
  obtain ⟨-, -, e0, e1, -⟩ := glk_idx_facts t
  funext y
  unfold iblk1
  rw [View.read_apply]
  show (V c main_v4 : S1x256.Idx → EReal) _ = (V c main_v4 : S1x256.Idx → EReal) y
  refine congrArg (V c main_v4 : S1x256.Idx → EReal) (funext fun a => Fin.ext ?_)
  match a with
  | ⟨0, _⟩ => show win1_5.index t (0 : Fin 2) * 1 + 1 * (y 0).val = (y 0).val; omega
  | ⟨1, _⟩ => show win1_5.index t (1 : Fin 2) * 256 + 1 * (y 1).val = (y 1).val; omega

/-- The shift's block is the shift row. -/
theorem glk_iblk6 (V : (c : Dev nD) → (b : Ref sig .tc) → Buf (Elt Ideal) ((c : Thread nD τ).loc b)) (c : Dev nD) (t : Fin cfg1.N) :
    (iblk1 V c 6 t : S1x256.Idx → EReal) = (V c main_v5 : S1x256.Idx → EReal) := by
  obtain ⟨-, -, -, -, e0, e1, -⟩ := glk_idx_facts t
  funext y
  unfold iblk1
  rw [View.read_apply]
  show (V c main_v5 : S1x256.Idx → EReal) _ = (V c main_v5 : S1x256.Idx → EReal) y
  refine congrArg (V c main_v5 : S1x256.Idx → EReal) (funext fun a => Fin.ext ?_)
  match a with
  | ⟨0, _⟩ => show win1_6.index t (0 : Fin 2) * 1 + 1 * (y 0).val = (y 0).val; omega
  | ⟨1, _⟩ => show win1_6.index t (1 : Fin 2) * 256 + 1 * (y 1).val = (y 1).val; omega

/-- The weight's block is the transposed weight. -/
theorem glk_iblk7 (V : (c : Dev nD) → (b : Ref sig .tc) → Buf (Elt Ideal) ((c : Thread nD τ).loc b)) (c : Dev nD) (t : Fin cfg1.N) :
    (iblk1 V c 7 t : S256x128.Idx → EReal) = (V c main_v9 : S256x128.Idx → EReal) := by
  obtain ⟨-, -, -, -, -, -, e0, e1, -⟩ := glk_idx_facts t
  funext y
  unfold iblk1
  rw [View.read_apply]
  show (V c main_v9 : S256x128.Idx → EReal) _ = (V c main_v9 : S256x128.Idx → EReal) y
  refine congrArg (V c main_v9 : S256x128.Idx → EReal) (funext fun a => Fin.ext ?_)
  match a with
  | ⟨0, _⟩ => show win1_7.index t (0 : Fin 2) * 256 + 1 * (y 0).val = (y 0).val; omega
  | ⟨1, _⟩ => show win1_7.index t (1 : Fin 2) * 128 + 1 * (y 1).val = (y 1).val; omega

/-- What the one point writes back to the global table's window is the body's value on the arrays as the region finds
    them, read through the window's one block. -/
theorem glk_flushed (V : (c : Dev nD) → (b : Ref sig .tc) → Buf (Elt Ideal) ((c : Thread nD τ).loc b)) (c : Dev nD) (t : Fin cfg1.N) :
    (dat1 V c).flushed 9 t = ((cfg1.win 9).blk t).view.read (Elt Ideal)
      (k1_pay1 (F := Ideal) (V c main_arg2) (V c main_v4) (V c main_v5) (V c main_v9)) := by
  show (cfg1.win 9).cut (grid1.coords t) ((dat1 V c).after 9 t) = _
  rw [after1_9]
  unfold out1_9
  rw [View.canon_unit_zero glk_hz]
  simp only [View.ld_unit_zero (S := S1x256) glk_hz, View.ld_unit_zero (S := S256x128) glk_hz]
  rw [glk_iblk4 V c t, glk_iblk5 V c t, glk_iblk6 V c t, glk_iblk7 V c t]
  obtain ⟨-, -, -, -, -, -, -, -, e0, e1⟩ := glk_idx_facts t
  funext y
  show (k1_pay1 (F := Ideal) (V c main_arg2) (V c main_v4) (V c main_v5) (V c main_v9) : S1x128.Idx → EReal) y
    = (k1_pay1 (F := Ideal) (V c main_arg2) (V c main_v4) (V c main_v5) (V c main_v9) : S1x128.Idx → EReal) (((cfg1.win 9).blk t).view.emb y)
  refine congrArg (k1_pay1 (F := Ideal) (V c main_arg2) (V c main_v4) (V c main_v5) (V c main_v9) : S1x128.Idx → EReal) (funext fun a => Fin.ext ?_)
  match a with
  | ⟨0, _⟩ => show (y 0).val = win1_9.index t (0 : Fin 2) * 1 + 1 * (y 0).val; omega
  | ⟨1, _⟩ => show (y 1).val = win1_9.index t (1 : Fin 2) * 128 + 1 * (y 1).val; omega

/-- The one block covers the output array. -/
theorem glk_cover (c : Dev nD) (i : ((cfg1.win 9).arr.view.loc (c.tc : Thread nD τ)).2.ty.Idx) :
    ∃ t : Fin cfg1.N, (cfg1.win 9).flush t = true ∧ i ∈ ((cfg1.win 9).blk t).view.set := by
  refine ⟨t1_0, flush1_9 t1_0, ?_⟩
  obtain ⟨-, -, -, -, -, -, -, -, e0, e1⟩ := glk_idx_facts t1_0
  show i ∈ ((View.whole main_v12_1).slice (win1_9.rect t1_0)).set
  rw [View.set_slice_whole, Rect.mem_set_unit]
  intro a
  match a with
  | ⟨0, _⟩ =>
    have h0 : (i 0).val < 1 := (i 0).isLt
    show win1_9.index t1_0 (0 : Fin 2) * 1 ≤ (i 0).val ∧ (i 0).val < win1_9.index t1_0 (0 : Fin 2) * 1 + 1
    omega
  | ⟨1, _⟩ =>
    have h1 : (i 1).val < 128 := (i 1).isLt
    show win1_9.index t1_0 (1 : Fin 2) * 128 ≤ (i 1).val ∧ (i 1).val < win1_9.index t1_0 (1 : Fin 2) * 128 + 128
    omega

/-- So after region 1 the global table's array holds the body's value on the arrays as the region found them. -/
theorem glk_array (V : (c : Dev nD) → (b : Ref sig .tc) → Buf (Elt Ideal) ((c : Thread nD τ).loc b)) (c : Dev nD) :
    ((dat1 V c).arrAt 9 cfg1.N : S1x128.Idx → EReal)
      = k1_pay1 (F := Ideal) (V c main_arg2) (V c main_v4) (V c main_v5) (V c main_v9) :=
  (dat1 V c).arrAt_eq_of_cover 9 _ (fun t _ => glk_flushed V c t) (glk_cover c)

/-! ## The arrays as region 1 finds them

Region 0 writes none of them, so they are as the host prefix leaves them: the row as launched, the scale and the shift
reshaped from [256] to [1, 256], the weight transposed. -/

/-- The row as region 1 finds it is the launched row. -/
theorem glk_row (k : Fin 256) :
    (V2 (F := Ideal) m ρ c main_arg2 : S1x256.Idx → EReal) (ix2 (0 : Fin 1) k)
      = (m ((c : Thread nD τ).loc main_arg2)) (ix2 (0 : Fin 1) k) := by
  have e : (V2 (F := Ideal) m ρ c main_arg2 : S1x256.Idx → EReal) = m ((c : Thread nD τ).loc main_arg2) := by
    refine (hrest0 m ρ c main_arg2 (by decide)).trans ?_
    show StableHlo.after hostOps0 (W0 m ρ c) (Proc.devRef .tc main_arg2) = _
    after_results
  rw [e]

/-- The scale as region 1 finds it, at lane k, is entry k of the launched scale. -/
theorem glk_scale (k : Fin 256) :
    (V2 (F := Ideal) m ρ c main_v4 : S1x256.Idx → EReal) (ix2 (0 : Fin 1) k)
      = (m ((c : Thread nD τ).loc main_arg10)) (ix1 k) := by
  have e : (V2 (F := Ideal) m ρ c main_v4 : S1x256.Idx → EReal)
      = shapeCast S1x256 (m ((c : Thread nD τ).loc main_arg10) : S256.Idx → EReal) Gen.shapeCasts_S256_S1x256 := by
    refine (hrest0 m ρ c main_v4 (by decide)).trans ?_
    show StableHlo.after hostOps0 (W0 m ρ c) (Proc.devRef .tc main_v4) = _
    after_results
    rfl
  rw [e]
  exact shapeCast_a_1a_apply _ _ 0 k

/-- The shift as region 1 finds it, at lane k, is entry k of the launched shift. -/
theorem glk_shift (k : Fin 256) :
    (V2 (F := Ideal) m ρ c main_v5 : S1x256.Idx → EReal) (ix2 (0 : Fin 1) k)
      = (m ((c : Thread nD τ).loc main_arg11)) (ix1 k) := by
  have e : (V2 (F := Ideal) m ρ c main_v5 : S1x256.Idx → EReal)
      = shapeCast S1x256 (m ((c : Thread nD τ).loc main_arg11) : S256.Idx → EReal) Gen.shapeCasts_S256_S1x256 := by
    refine (hrest0 m ρ c main_v5 (by decide)).trans ?_
    show StableHlo.after hostOps0 (W0 m ρ c) (Proc.devRef .tc main_v5) = _
    after_results
    rfl
  rw [e]
  exact shapeCast_a_1a_apply _ _ 0 k

/-- The weight as region 1 finds it, at (k, q), is the launched weight at (q, k). -/
theorem glk_weight (k : Fin 256) (q : Fin 128) :
    (V2 (F := Ideal) m ρ c main_v9 : S256x128.Idx → EReal) (ix2 k q)
      = (m ((c : Thread nD τ).loc main_arg16)) (ix2 q k) := by
  have e : (V2 (F := Ideal) m ρ c main_v9 : S256x128.Idx → EReal)
      = transpose S256x128 [1, 0] (m ((c : Thread nD τ).loc main_arg16) : S128x256.Idx → EReal) Gen.transposes_S128x256_S256x128_1_0 := by
    refine (hrest0 m ρ c main_v9 (by decide)).trans ?_
    show StableHlo.after hostOps0 (W0 m ρ c) (Proc.devRef .tc main_v9) = _
    after_results
  rw [e]
  exact transpose_ix2_apply _ _ k q

/-! ## The statement -/

/-- The one row of the global table after region 1: the rectified normalised global row against row q of W_g. -/
theorem gl_kernel (r : Fin 1) (q : Fin 128) :
    (V3 (F := Ideal) m ρ c main_v12_1 : S1x128.Idx → EReal) (ix2 r q)
      = Cert.RowSpec.tableEntry (fun k => (m ((c : Thread nD τ).loc main_arg2)) (ix2 r k)) (fun k => (m ((c : Thread nD τ).loc main_arg10)) (ix1 k)) (fun k => (m ((c : Thread nD τ).loc main_arg11)) (ix1 k)) (fun k => (m ((c : Thread nD τ).loc main_arg16)) (ix2 q k)) := by
  obtain rfl : r = 0 := Subsingleton.elim _ _
  have e3 : (V3 (F := Ideal) m ρ c main_v12_1 : S1x128.Idx → EReal)
      = k1_pay1 (F := Ideal) (V2 m ρ c main_arg2) (V2 m ρ c main_v4) (V2 m ρ c main_v5) (V2 m ρ c main_v9) :=
    (hF1 m ρ c 9).symm.trans (glk_array (V2 m ρ) c)
  refine (congrFun e3 (ix2 (0 : Fin 1) q)).trans ((glk_payload _ _ _ _ 0 q).trans ?_)
  rw [funext (glk_row m ρ c), funext (glk_scale m ρ c), funext (glk_shift m ρ c), funext fun k => glk_weight m ρ c k q]

end Cert.Bridge

end
-- ==== Proof.ProjKernel.lean ====
import proofs.«420006_j33088428049090_2_alg».proof.Proof.Gen.KernelIdeal.Frame
import proofs.«420006_j33088428049090_2_alg».proof.Proof.RowSpec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

namespace ProjKernel

open scoped BigOperators

/-! ## The block product at an index

The body's one matrix product contracts the left operand's axis 1 with the right operand's axis 0: at the
output index (p, q) the left operand is read at (p, k) and the right one at (k, q). -/

theorem lhs_axis0 (i : S8000x128.Idx) (z : dot_S8000x128_S128x128_S8000x128_1_0_0_1_n_n.contr.Idx) :
    (dot_S8000x128_S128x128_S8000x128_1_0_0_1_n_n.lhsIdx i z 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_axis1 (i : S8000x128.Idx) (z : dot_S8000x128_S128x128_S8000x128_1_0_0_1_n_n.contr.Idx) :
    (dot_S8000x128_S128x128_S8000x128_1_0_0_1_n_n.lhsIdx i z 1).val = (z ⟨0, by decide⟩).val :=
  dot_S8000x128_S128x128_S8000x128_1_0_0_1_n_n.lhsIdx_val_of_single rfl i z
theorem rhs_axis0 (i : S8000x128.Idx) (z : dot_S8000x128_S128x128_S8000x128_1_0_0_1_n_n.contr.Idx) :
    (dot_S8000x128_S128x128_S8000x128_1_0_0_1_n_n.rhsIdx i z 0).val = (z ⟨0, by decide⟩).val :=
  dot_S8000x128_S128x128_S8000x128_1_0_0_1_n_n.rhsIdx_val_of_single rfl i z
theorem rhs_axis1 (i : S8000x128.Idx) (z : dot_S8000x128_S128x128_S8000x128_1_0_0_1_n_n.contr.Idx) :
    (dot_S8000x128_S128x128_S8000x128_1_0_0_1_n_n.rhsIdx i z 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The block product into the zero accumulator, at (p, q): the sum over k of left (p, k) times right (k, q). -/
theorem matmul_at (l : FVec Ideal S8000x128 .bf16) (r : FVec Ideal S128x128 .bf16) (p : Fin 8000) (q : Fin 128) :
    (matmul (F := Ideal) dot_S8000x128_S128x128_S8000x128_1_0_0_1_n_n none l r (constant (F := Ideal) S8000x128 .f32 0x00000000#32)) (ix2 p q)
      = ∑ k : Fin 128, l (ix2 p k) * r (ix2 k q) := by
  refine (Ideal.matmul_constant_zero_apply dot_S8000x128_S128x128_S8000x128_1_0_0_1_n_n none l r (ix2 p q)).trans ?_
  rw [← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S8000x128_S128x128_S8000x128_1_0_0_1_n_n.rhsIdx (ix2 p q) ((contrEquiv1 dot_S8000x128_S128x128_S8000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's payload at (p, q): the block of rows against the weight block, plus the bias row's entry q. -/
theorem pay_at (x0 : Vec Ideal S8000x128 .f32) (x1 : Vec Ideal S128x128 .f32) (x2 : Vec Ideal S1x128 .f32)
    (p : Fin 8000) (q : Fin 128) :
    (k2_pay1 (F := Ideal) x0 x1 x2 : S8000x128.Idx → EReal) (ix2 p q)
      = (∑ k : Fin 128, x0 (ix2 p k) * x1 (ix2 k q)) + x2 (ix2 (0 : Fin 1) q) := by
  unfold k2_pay1
  rw [shapeCast_self, shapeCast_self]
  refine congrArg₂ (· + ·) (matmul_at (truncf .bf16 x0 bitsLt_bf16_f32) (truncf .bf16 x1 bitsLt_bf16_f32) p q) ?_
  exact broadcastTo_apply x2 broadcasts_S1x128_S8000x128 (ix2 p q) (ix2 (0 : Fin 1) q) (fun a => match a with
    | ⟨0, _⟩ => rfl
    | ⟨1, _⟩ => rfl)

/-! ## From the blocks to the array

At grid point t the row windows (the input rows and the output) sit at block (t, 0): rows 8000 t … 8000 t + 7999;
the weight window and the bias window are their whole arrays at every point. -/

theorem zeros2 : (![0, 0] : Fin 2 → Nat) = fun _ => 0 := funext fun a => by fin_cases a <;> rfl

/-- The printed index maps, decided over the 125 grid points. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Region
variable (V : (c : Dev nD) → (b : Ref sig .tc) → Buf (Elt Ideal) ((c : Thread nD τ).loc b))

/-- The whole output array as one function of the three input arrays: entry (r, q) is row r of the rows array
    against column q of the weight array, plus the bias row's entry q. -/
def rowsTimes (A : S1000000x128.Idx → EReal) (W : S128x128.Idx → EReal) (B : S1x128.Idx → EReal) :
    S1000000x128.Idx → EReal :=
  fun i => (∑ k : Fin 128, A (ix2 (i 0) k) * W (ix2 k (i 1))) + B (ix2 (0 : Fin 1) (i 1))

/-- The rows window's block at point t, at (p, k), is the rows array at (8000 t + p, k). -/
theorem rows_block_at (t : Fin cfg2.N) (p : Fin 8000) (k : Fin 128) (i : S1000000x128.Idx)
    (h0 : (i 0).val = t.val * 8000 + p.val) (h1 : (i 1).val = k.val) :
    (iblk2 V c 0 t : Vec Ideal S8000x128 .f32) (ix2 p k) = (V c main_arg3 : S1000000x128.Idx → EReal) i := by
  obtain ⟨e0, e1, -⟩ := index_facts t
  unfold iblk2
  rw [View.read_apply]
  show (V c main_arg3 : S1000000x128.Idx → EReal) _ = V c main_arg3 i
  congr 1
  funext a
  apply Fin.ext
  match a with
  | ⟨0, _⟩ => show win2_0.index t (0 : Fin 2) * 8000 + 1 * p.val = (i 0).val; omega
  | ⟨1, _⟩ => show win2_0.index t (1 : Fin 2) * 128 + 1 * k.val = (i 1).val; omega

/-- The weight window's block is the weight array at every point. -/
theorem weights_block_at (t : Fin cfg2.N) (y : S128x128.Idx) :
    (iblk2 V c 1 t : Vec Ideal S128x128 .f32) y = (V c main_v10 : S128x128.Idx → EReal) y := by
  obtain ⟨-, -, e0, e1, -⟩ := index_facts t
  unfold iblk2
  rw [View.read_apply]
  show (V c main_v10 : S128x128.Idx → EReal) _ = V c main_v10 y
  congr 1
  funext a
  apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The bias window's block is the bias row at every point. -/
theorem bias_block_at (t : Fin cfg2.N) (y : S1x128.Idx) :
    (iblk2 V c 2 t : Vec Ideal S1x128 .f32) y = (V c main_v6 : S1x128.Idx → EReal) y := by
  obtain ⟨-, -, -, -, e0, e1, -⟩ := index_facts t
  unfold iblk2
  rw [View.read_apply]
  show (V c main_v6 : S1x128.Idx → EReal) _ = V c main_v6 y
  congr 1
  funext a
  apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- What point t writes back is block t of `rowsTimes` of the arrays as the region finds them. -/
theorem flushed_eq (t : Fin cfg2.N) :
    (dat2 V c).flushed 3 t = ((cfg2.win 3).blk t).view.read (Elt Ideal)
      (rowsTimes (V c main_arg3) (V c main_v10) (V c main_v6)) := by
  show (cfg2.win 3).cut (grid2.coords t) ((dat2 V c).after 3 t) = _
  rw [after2_3]
  unfold out2_3
  rw [View.canon_unit_zero zeros2]
  simp only [View.ld_unit_zero (S := S8000x128) zeros2, View.ld_unit_zero (S := S128x128) zeros2,
    View.ld_unit_zero (S := S1x128) zeros2]
  obtain ⟨-, -, -, -, -, -, e0, e1⟩ := index_facts t
  funext j
  obtain ⟨p, q, rfl⟩ : ∃ (p : Fin 8000) (q : Fin 128), j = ix2 p q := ⟨j 0, j 1, eq_ix2 j⟩
  refine (pay_at (iblk2 V c 0 t) (iblk2 V c 1 t) (iblk2 V c 2 t) p q).trans ?_
  rw [View.read_apply]
  show _ = rowsTimes (V c main_arg3) (V c main_v10) (V c main_v6) (((cfg2.win 3).blk t).view.emb (ix2 p q))
  unfold rowsTimes
  have hq : (((cfg2.win 3).blk t).view.emb (ix2 p q) 1 : Fin 128) = q :=
    Fin.ext (show win2_3.index t (1 : Fin 2) * 128 + 1 * q.val = q.val by omega)
  refine congrArg₂ (· + ·) (Finset.sum_congr rfl fun k _ => congrArg₂ (· * ·) ?_ ?_) ?_
  · exact rows_block_at c V t p k _
      (show win2_3.index t (0 : Fin 2) * 8000 + 1 * p.val = t.val * 8000 + p.val by omega) rfl
  · exact (weights_block_at c V t (ix2 k q)).trans
      (congrArg (fun z : Fin 128 => (V c main_v10 : S128x128.Idx → EReal) (ix2 k z)) hq.symm)
  · exact (bias_block_at c V t (ix2 (0 : Fin 1) q)).trans
      (congrArg (fun z : Fin 128 => (V c main_v6 : S1x128.Idx → EReal) (ix2 (0 : Fin 1) z)) hq.symm)

/-- An index of the output array is in point t's block iff each coordinate is in the block's range on its axis. -/
theorem mem_block (t : Fin cfg2.N) (i : S1000000x128.Idx) :
    i ∈ ((cfg2.win 3).blk t).view.set ↔ ∀ a : Fin 2, win2_3.index t a * S8000x128.size a ≤ (i a).val
      ∧ (i a).val < win2_3.index t a * S8000x128.size a + S8000x128.size a := by
  show i ∈ ((View.whole main_v13).slice (win2_3.rect t)).set ↔ _
  rw [View.set_slice_whole, Rect.mem_set_unit]
  exact Iff.rfl

/-- Row r lies in the block of point r / 8000: the 125 blocks of 8000 rows tile the million rows. -/
theorem covered (i : S1000000x128.Idx) :
    ∃ t : Fin cfg2.N, (cfg2.win 3).flush t = true ∧ i ∈ ((cfg2.win 3).blk t).view.set := by
  have hi0 : (i 0).val < 1000000 := (i 0).isLt
  have hi1 : (i 1).val < 128 := (i 1).isLt
  obtain ⟨t, ht⟩ : ∃ t : Fin cfg2.N, t.val = (i 0).val / 8000 :=
    ⟨⟨(i 0).val / 8000, by show _ < grid2.N; rw [N_2]; omega⟩, rfl⟩
  obtain ⟨-, -, -, -, -, -, e0, e1⟩ := index_facts t
  refine ⟨t, flush2_3 t, ?_⟩
  rw [mem_block]
  intro a
  match a with
  | ⟨0, _⟩ =>
    show win2_3.index t (0 : Fin 2) * 8000 ≤ (i 0).val ∧ (i 0).val < win2_3.index t (0 : Fin 2) * 8000 + 8000
    omega
  | ⟨1, _⟩ =>
    show win2_3.index t (1 : Fin 2) * 128 ≤ (i 1).val ∧ (i 1).val < win2_3.index t (1 : Fin 2) * 128 + 128
    omega

/-- The output array after the region: `rowsTimes` of the arrays as the region finds them. -/
theorem array_eq : (dat2 V c).arrAt 3 cfg2.N = rowsTimes (V c main_arg3) (V c main_v10) (V c main_v6) :=
  (dat2 V c).arrAt_eq_of_cover 3 _ (fun t _ => flushed_eq c V t) (covered)

end Region

/-! ## The region's inputs, read back to the launch memory

None of the three input arrays is written by the two earlier regions; the host prefix leaves the rows array as
launched, writes the weight array as the transpose of the launched weight matrix and the bias row as the launched
bias vector reshaped to one row. -/

theorem entry_rows : V3 m ρ c main_arg3 = m ((c : Thread nD τ).loc main_arg3) := by
  refine (hrest1 m ρ c main_arg3 (by decide)).trans ((hrest0 m ρ c main_arg3 (by decide)).trans ?_)
  show StableHlo.after hostOps0 (W0 m ρ c) (Proc.devRef .tc main_arg3) = _
  after_results

theorem entry_weights : (V3 m ρ c main_v10 : S128x128.Idx → EReal)
    = transpose S128x128 [1, 0] (m ((c : Thread nD τ).loc main_arg12) : S128x128.Idx → EReal) transposes_S128x128_S128x128_1_0 := by
  refine (hrest1 m ρ c main_v10 (by decide)).trans ((hrest0 m ρ c main_v10 (by decide)).trans ?_)
  show StableHlo.after hostOps0 (W0 m ρ c) (Proc.devRef .tc main_v10) = _
  after_results

theorem entry_bias : (V3 m ρ c main_v6 : S1x128.Idx → EReal)
    = shapeCast S1x128 (m ((c : Thread nD τ).loc main_arg13) : S128.Idx → EReal) shapeCasts_S128_S1x128 := by
  refine (hrest1 m ρ c main_v6 (by decide)).trans ((hrest0 m ρ c main_v6 (by decide)).trans ?_)
  show StableHlo.after hostOps0 (W0 m ρ c) (Proc.devRef .tc main_v6) = _
  after_results
  rfl

end ProjKernel

/-- Row r of the big projection after region 2: row r of proj_values against row q of W_proj, plus b_proj q. -/
theorem proj_kernel (r : Fin 1000000) (q : Fin 128) :
    (V4 (F := Ideal) m ρ c main_v13 : S1000000x128.Idx → EReal) (ix2 r q)
      = Cert.RowSpec.projEntry (fun k => (m ((c : Thread nD τ).loc main_arg3)) (ix2 r k)) (fun k => (m ((c : Thread nD τ).loc main_arg12)) (ix2 q k)) ((m ((c : Thread nD τ).loc main_arg13)) (ix1 q)) := by
  have h : (V4 (F := Ideal) m ρ c main_v13 : S1000000x128.Idx → EReal)
      = ProjKernel.rowsTimes (V3 m ρ c main_arg3) (V3 m ρ c main_v10) (V3 m ρ c main_v6) :=
    (hF2 m ρ c 3).symm.trans (ProjKernel.array_eq c (V3 m ρ))
  rw [h, ProjKernel.entry_rows, ProjKernel.entry_weights, ProjKernel.entry_bias]
  unfold ProjKernel.rowsTimes Cert.RowSpec.projEntry
  refine congrArg₂ (· + ·) (Finset.sum_congr rfl fun k _ => congrArg₂ (· * ·) rfl ?_) ?_
  · exact transpose_apply [1, 0] _ transposes_S128x128_S128x128_1_0 (ix2 k q) (ix2 q k) (fun b => match b with
      | ⟨0, _⟩ => rfl
      | ⟨1, _⟩ => rfl)
  · exact shapeCast_a_1a_apply _ shapeCasts_S128_S1x128 (0 : Fin 1) q

end Cert.Bridge

end
-- ==== Proof.RefTables.lean ====
import proofs.«420006_j33088428049090_2_alg».proof.Proof.Gen.ReferenceIdeal.Read
import proofs.«420006_j33088428049090_2_alg».proof.Proof.RowSpec
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.ValueIdx
open Cert.ReferenceIdeal.Read

/-! ## The scene-point rows

Row r of the 100000 x 256 table is normalised, scaled, shifted and rectified; the stages are read one at a
time at the index (r, k), every broadcast being a read of its operand at the coordinates it keeps. -/

/-- The row mean stage at (r, ·): the sum of row r divided by 256. -/
theorem sp_mean (x0 : (⟨Cert.ReferenceIdeal.S100000x256, .f32⟩ : BufTy).Contents (Elt Ideal)) (r : Fin 100000) (j : Fin 1) :
    val_main_v3 (F := Ideal) x0 (ix2 r j) = Cert.RowSpec.mean (fun k => x0 (ix2 r k)) := by
  have e1 : idx_main_v1 (ix2 r j) = ix1 r := funext fun a => Fin.ext (by match a with | ⟨0, _⟩ => rfl)
  have e0 : ∀ k : Fin 256, idx_main_v0 (ix1 r) k = ix2 r k := fun k =>
    funext fun a => Fin.ext (by match a with | ⟨0, _⟩ => rfl | ⟨1, _⟩ => rfl)
  rw [val_main_v3_apply, val_main_v1_apply, val_main_v2_apply, val_main_cst_0_apply, e1, val_main_v0_apply,
    val_main_cst_apply]
  simp only [e0, Ideal.hostDivf_def, Ideal.ofBits_def, Ideal.ofBits_zero_f32, zero_add]
  rfl

/-- The row variance stage at (r, ·): the sum of the squared deviations of row r divided by 256. -/
theorem sp_var (x0 : (⟨Cert.ReferenceIdeal.S100000x256, .f32⟩ : BufTy).Contents (Elt Ideal)) (r : Fin 100000) (j : Fin 1) :
    val_main_v10 (F := Ideal) x0 (ix2 r j) = Cert.RowSpec.var (fun k => x0 (ix2 r k)) := by
  have e8 : idx_main_v8 (ix2 r j) = ix1 r := funext fun a => Fin.ext (by match a with | ⟨0, _⟩ => rfl)
  have e7 : ∀ k : Fin 256, idx_main_v7 (ix1 r) k = ix2 r k := fun k =>
    funext fun a => Fin.ext (by match a with | ⟨0, _⟩ => rfl | ⟨1, _⟩ => rfl)
  have e4 : ∀ k : Fin 256, idx_main_v4 (ix2 r k) = ix2 r (⟨0, Nat.one_pos⟩ : Fin 1) := fun k =>
    funext fun a => Fin.ext (by match a with | ⟨0, _⟩ => rfl | ⟨1, _⟩ => rfl)
  rw [val_main_v10_apply, val_main_v8_apply, val_main_v9_apply, val_main_cst_2_apply, e8, val_main_v7_apply,
    val_main_cst_1_apply]
  have hk : ∀ k : Fin 256, val_main_v6 (F := Ideal) x0 (idx_main_v7 (ix1 r) k)
      = (x0 (ix2 r k) - Cert.RowSpec.mean (fun k => x0 (ix2 r k))) * (x0 (ix2 r k) - Cert.RowSpec.mean (fun k => x0 (ix2 r k))) := by
    intro k
    rw [e7, val_main_v6_apply, val_main_v5_apply, val_main_v4_apply, e4, sp_mean]
    rfl
  simp only [hk, Ideal.hostDivf_def, Ideal.ofBits_def, Ideal.ofBits_zero_f32, zero_add]
  rfl

/-- The rectified normalised row stage at (r, k). -/
theorem sp_row (x0 : (⟨Cert.ReferenceIdeal.S100000x256, .f32⟩ : BufTy).Contents (Elt Ideal)) (x6 x7 : (⟨Cert.ReferenceIdeal.S256, .f32⟩ : BufTy).Contents (Elt Ideal)) (r : Fin 100000) (k : Fin 256) :
    val_main_v24 (F := Ideal) x0 x6 x7 (ix2 r k)
      = Cert.RowSpec.lnRelu (fun k => x0 (ix2 r k)) (fun k => x6 (ix1 k)) (fun k => x7 (ix1 k)) k := by
  have e11 : idx_main_v11 (ix2 r k) = ix2 r (⟨0, Nat.one_pos⟩ : Fin 1) :=
    funext fun a => Fin.ext (by match a with | ⟨0, _⟩ => rfl | ⟨1, _⟩ => rfl)
  have e16 : idx_main_v16 (ix2 r k) = ix2 r (⟨0, Nat.one_pos⟩ : Fin 1) :=
    funext fun a => Fin.ext (by match a with | ⟨0, _⟩ => rfl | ⟨1, _⟩ => rfl)
  have e19 : idx_main_v18 (idx_main_v19 (ix2 r k)) = ix1 k := funext fun a => Fin.ext (by match a with | ⟨0, _⟩ => rfl)
  have e22 : idx_main_v21 (idx_main_v22 (ix2 r k)) = ix1 k := funext fun a => Fin.ext (by match a with | ⟨0, _⟩ => rfl)
  rw [val_main_v24_apply, val_main_call0_v0_apply, val_main_call0_cst_apply, val_main_v23_apply, val_main_v20_apply,
    val_main_v22_apply, val_main_v21_apply, e22, val_main_v17_apply, val_main_v19_apply, val_main_v18_apply, e19,
    val_main_v12_apply, val_main_v11_apply, e11, sp_mean, val_main_v16_apply, e16, val_main_v15_apply,
    val_main_v14_apply, sp_var, val_main_v13_apply, val_main_cst_3_apply]
  simp only [Ideal.maximumf_def, Ideal.addf_def, Ideal.subf_def, Ideal.mulf_def, Ideal.hostUnary_rsqrt_def,
    Ideal.ofBits_def, Ideal.ofBits_zero_f32]
  rfl

/-- The scene-point table stage at (r, q): the rectified normalised row r against row q of the weight. -/
theorem sp_ref (x0 : (⟨Cert.ReferenceIdeal.S100000x256, .f32⟩ : BufTy).Contents (Elt Ideal)) (x6 x7 : (⟨Cert.ReferenceIdeal.S256, .f32⟩ : BufTy).Contents (Elt Ideal)) (x14 : (⟨Cert.ReferenceIdeal.S128x256, .f32⟩ : BufTy).Contents (Elt Ideal)) (r : Fin 100000) (q : Fin 128) :
    val_main_v79 (F := Ideal) x0 x6 x7 x14 (ix2 r q)
      = Cert.RowSpec.tableEntry (fun k => x0 (ix2 r k)) (fun k => x6 (ix1 k)) (fun k => x7 (ix1 k)) (fun k => x14 (ix2 q k)) := by
  rw [val_main_v79_apply]
  unfold Cert.RowSpec.tableEntry
  refine Finset.sum_congr rfl fun k _ => ?_
  have el : lidx_main_v79 (ix2 r q) k = ix2 r k :=
    funext fun a => Fin.ext (by match a with | ⟨0, _⟩ => rfl | ⟨1, _⟩ => rfl)
  have er : idx_main_v78 (ridx_main_v79 (ix2 r q) k) = ix2 q k :=
    funext fun a => Fin.ext (by match a with | ⟨0, _⟩ => rfl | ⟨1, _⟩ => rfl)
  rw [el, sp_row, val_main_v78_apply, er]

/-! ## The view rows

The same chain over the 2000 x 256 table. -/

/-- The row mean stage at (r, ·): the sum of row r divided by 256. -/
theorem vw_mean (x1 : (⟨Cert.ReferenceIdeal.S2000x256, .f32⟩ : BufTy).Contents (Elt Ideal)) (r : Fin 2000) (j : Fin 1) :
    val_main_v28 (F := Ideal) x1 (ix2 r j) = Cert.RowSpec.mean (fun k => x1 (ix2 r k)) := by
  have e26 : idx_main_v26 (ix2 r j) = ix1 r := funext fun a => Fin.ext (by match a with | ⟨0, _⟩ => rfl)
  have e25 : ∀ k : Fin 256, idx_main_v25 (ix1 r) k = ix2 r k := fun k =>
    funext fun a => Fin.ext (by match a with | ⟨0, _⟩ => rfl | ⟨1, _⟩ => rfl)
  rw [val_main_v28_apply, val_main_v26_apply, val_main_v27_apply, val_main_cst_5_apply, e26, val_main_v25_apply,
    val_main_cst_4_apply]
  simp only [e25, Ideal.hostDivf_def, Ideal.ofBits_def, Ideal.ofBits_zero_f32, zero_add]
  rfl

/-- The row variance stage at (r, ·): the sum of the squared deviations of row r divided by 256. -/
theorem vw_var (x1 : (⟨Cert.ReferenceIdeal.S2000x256, .f32⟩ : BufTy).Contents (Elt Ideal)) (r : Fin 2000) (j : Fin 1) :
    val_main_v35 (F := Ideal) x1 (ix2 r j) = Cert.RowSpec.var (fun k => x1 (ix2 r k)) := by
  have e33 : idx_main_v33 (ix2 r j) = ix1 r := funext fun a => Fin.ext (by match a with | ⟨0, _⟩ => rfl)
  have e32 : ∀ k : Fin 256, idx_main_v32 (ix1 r) k = ix2 r k := fun k =>
    funext fun a => Fin.ext (by match a with | ⟨0, _⟩ => rfl | ⟨1, _⟩ => rfl)
  have e29 : ∀ k : Fin 256, idx_main_v29 (ix2 r k) = ix2 r (⟨0, Nat.one_pos⟩ : Fin 1) := fun k =>
    funext fun a => Fin.ext (by match a with | ⟨0, _⟩ => rfl | ⟨1, _⟩ => rfl)
  rw [val_main_v35_apply, val_main_v33_apply, val_main_v34_apply, val_main_cst_7_apply, e33, val_main_v32_apply,
    val_main_cst_6_apply]
  have hk : ∀ k : Fin 256, val_main_v31 (F := Ideal) x1 (idx_main_v32 (ix1 r) k)
      = (x1 (ix2 r k) - Cert.RowSpec.mean (fun k => x1 (ix2 r k))) * (x1 (ix2 r k) - Cert.RowSpec.mean (fun k => x1 (ix2 r k))) := by
    intro k
    rw [e32, val_main_v31_apply, val_main_v30_apply, val_main_v29_apply, e29, vw_mean]
    rfl
  simp only [hk, Ideal.hostDivf_def, Ideal.ofBits_def, Ideal.ofBits_zero_f32, zero_add]
  rfl

/-- The rectified normalised row stage at (r, k). -/
theorem vw_row (x1 : (⟨Cert.ReferenceIdeal.S2000x256, .f32⟩ : BufTy).Contents (Elt Ideal)) (x8 x9 : (⟨Cert.ReferenceIdeal.S256, .f32⟩ : BufTy).Contents (Elt Ideal)) (r : Fin 2000) (k : Fin 256) :
    val_main_v49 (F := Ideal) x1 x8 x9 (ix2 r k)
      = Cert.RowSpec.lnRelu (fun k => x1 (ix2 r k)) (fun k => x8 (ix1 k)) (fun k => x9 (ix1 k)) k := by
  have e36 : idx_main_v36 (ix2 r k) = ix2 r (⟨0, Nat.one_pos⟩ : Fin 1) :=
    funext fun a => Fin.ext (by match a with | ⟨0, _⟩ => rfl | ⟨1, _⟩ => rfl)
  have e41 : idx_main_v41 (ix2 r k) = ix2 r (⟨0, Nat.one_pos⟩ : Fin 1) :=
    funext fun a => Fin.ext (by match a with | ⟨0, _⟩ => rfl | ⟨1, _⟩ => rfl)
  have e44 : idx_main_v43 (idx_main_v44 (ix2 r k)) = ix1 k := funext fun a => Fin.ext (by match a with | ⟨0, _⟩ => rfl)
  have e47 : idx_main_v46 (idx_main_v47 (ix2 r k)) = ix1 k := funext fun a => Fin.ext (by match a with | ⟨0, _⟩ => rfl)
  rw [val_main_v49_apply, val_main_call1_v0_apply, val_main_call1_cst_apply, val_main_v48_apply, val_main_v45_apply,
    val_main_v47_apply, val_main_v46_apply, e47, val_main_v42_apply, val_main_v44_apply, val_main_v43_apply, e44,
    val_main_v37_apply, val_main_v36_apply, e36, vw_mean, val_main_v41_apply, e41, val_main_v40_apply,
    val_main_v39_apply, vw_var, val_main_v38_apply, val_main_cst_8_apply]
  simp only [Ideal.maximumf_def, Ideal.addf_def, Ideal.subf_def, Ideal.mulf_def, Ideal.hostUnary_rsqrt_def,
    Ideal.ofBits_def, Ideal.ofBits_zero_f32]
  rfl

/-- The view table stage at (r, q): the rectified normalised row r against row q of the weight. -/
theorem vw_ref (x1 : (⟨Cert.ReferenceIdeal.S2000x256, .f32⟩ : BufTy).Contents (Elt Ideal)) (x8 x9 : (⟨Cert.ReferenceIdeal.S256, .f32⟩ : BufTy).Contents (Elt Ideal)) (x15 : (⟨Cert.ReferenceIdeal.S128x256, .f32⟩ : BufTy).Contents (Elt Ideal)) (r : Fin 2000) (q : Fin 128) :
    val_main_v81 (F := Ideal) x1 x8 x9 x15 (ix2 r q)
      = Cert.RowSpec.tableEntry (fun k => x1 (ix2 r k)) (fun k => x8 (ix1 k)) (fun k => x9 (ix1 k)) (fun k => x15 (ix2 q k)) := by
  rw [val_main_v81_apply]
  unfold Cert.RowSpec.tableEntry
  refine Finset.sum_congr rfl fun k _ => ?_
  have el : lidx_main_v81 (ix2 r q) k = ix2 r k :=
    funext fun a => Fin.ext (by match a with | ⟨0, _⟩ => rfl | ⟨1, _⟩ => rfl)
  have er : idx_main_v80 (ridx_main_v81 (ix2 r q) k) = ix2 q k :=
    funext fun a => Fin.ext (by match a with | ⟨0, _⟩ => rfl | ⟨1, _⟩ => rfl)
  rw [el, vw_row, val_main_v80_apply, er]

/-! ## The global row

The same chain over the 1 x 256 table. Its one row has index 0, which is where every broadcast along the row axis
reads; the scale and the shift are broadcast once, straight to 1 x 256. -/

/-- The only row index of a one-row table. -/
theorem fin1_eq (r : Fin 1) : r = ⟨0, Nat.one_pos⟩ := Fin.ext (by have h := r.isLt; omega)

/-- The row mean stage at (·, ·): the sum of the row divided by 256. -/
theorem gl_mean (x2 : (⟨Cert.ReferenceIdeal.S1x256, .f32⟩ : BufTy).Contents (Elt Ideal)) (r i j : Fin 1) :
    val_main_v53 (F := Ideal) x2 (ix2 i j) = Cert.RowSpec.mean (fun k => x2 (ix2 r k)) := by
  obtain rfl := fin1_eq r
  have e51 : idx_main_v51 (ix2 i j) = ix1 (⟨0, Nat.one_pos⟩ : Fin 1) :=
    funext fun a => Fin.ext (by match a with | ⟨0, _⟩ => rfl)
  have e50 : ∀ k : Fin 256, idx_main_v50 (ix1 (⟨0, Nat.one_pos⟩ : Fin 1)) k = ix2 (⟨0, Nat.one_pos⟩ : Fin 1) k := fun k =>
    funext fun a => Fin.ext (by match a with | ⟨0, _⟩ => rfl | ⟨1, _⟩ => rfl)
  rw [val_main_v53_apply, val_main_v51_apply, val_main_v52_apply, val_main_cst_10_apply, e51, val_main_v50_apply,
    val_main_cst_9_apply]
  simp only [e50, Ideal.hostDivf_def, Ideal.ofBits_def, Ideal.ofBits_zero_f32, zero_add]
  rfl

/-- The row variance stage at (·, ·): the sum of the squared deviations of the row divided by 256. -/
theorem gl_var (x2 : (⟨Cert.ReferenceIdeal.S1x256, .f32⟩ : BufTy).Contents (Elt Ideal)) (r i j : Fin 1) :
    val_main_v60 (F := Ideal) x2 (ix2 i j) = Cert.RowSpec.var (fun k => x2 (ix2 r k)) := by
  obtain rfl := fin1_eq r
  have e58 : idx_main_v58 (ix2 i j) = ix1 (⟨0, Nat.one_pos⟩ : Fin 1) :=
    funext fun a => Fin.ext (by match a with | ⟨0, _⟩ => rfl)
  have e57 : ∀ k : Fin 256, idx_main_v57 (ix1 (⟨0, Nat.one_pos⟩ : Fin 1)) k = ix2 (⟨0, Nat.one_pos⟩ : Fin 1) k := fun k =>
    funext fun a => Fin.ext (by match a with | ⟨0, _⟩ => rfl | ⟨1, _⟩ => rfl)
  have e54 : ∀ k : Fin 256, idx_main_v54 (ix2 (⟨0, Nat.one_pos⟩ : Fin 1) k)
      = ix2 (⟨0, Nat.one_pos⟩ : Fin 1) (⟨0, Nat.one_pos⟩ : Fin 1) := fun k =>
    funext fun a => Fin.ext (by match a with | ⟨0, _⟩ => rfl | ⟨1, _⟩ => rfl)
  rw [val_main_v60_apply, val_main_v58_apply, val_main_v59_apply, val_main_cst_12_apply, e58, val_main_v57_apply,
    val_main_cst_11_apply]
  have hk : ∀ k : Fin 256, val_main_v56 (F := Ideal) x2 (idx_main_v57 (ix1 (⟨0, Nat.one_pos⟩ : Fin 1)) k)
      = (x2 (ix2 (⟨0, Nat.one_pos⟩ : Fin 1) k) - Cert.RowSpec.mean (fun k => x2 (ix2 (⟨0, Nat.one_pos⟩ : Fin 1) k)))
        * (x2 (ix2 (⟨0, Nat.one_pos⟩ : Fin 1) k) - Cert.RowSpec.mean (fun k => x2 (ix2 (⟨0, Nat.one_pos⟩ : Fin 1) k))) := by
    intro k
    rw [e57, val_main_v56_apply, val_main_v55_apply, val_main_v54_apply, e54,
      gl_mean x2 (⟨0, Nat.one_pos⟩ : Fin 1)]
    rfl
  simp only [hk, Ideal.hostDivf_def, Ideal.ofBits_def, Ideal.ofBits_zero_f32, zero_add]
  rfl

/-- The rectified normalised row stage at (r, k). -/
theorem gl_row (x2 : (⟨Cert.ReferenceIdeal.S1x256, .f32⟩ : BufTy).Contents (Elt Ideal)) (x10 x11 : (⟨Cert.ReferenceIdeal.S256, .f32⟩ : BufTy).Contents (Elt Ideal)) (r : Fin 1) (k : Fin 256) :
    val_main_v72 (F := Ideal) x2 x10 x11 (ix2 r k)
      = Cert.RowSpec.lnRelu (fun k => x2 (ix2 r k)) (fun k => x10 (ix1 k)) (fun k => x11 (ix1 k)) k := by
  have e61 : idx_main_v61 (ix2 r k) = ix2 (⟨0, Nat.one_pos⟩ : Fin 1) (⟨0, Nat.one_pos⟩ : Fin 1) :=
    funext fun a => Fin.ext (by match a with | ⟨0, _⟩ => rfl | ⟨1, _⟩ => rfl)
  have e66 : idx_main_v66 (ix2 r k) = ix2 (⟨0, Nat.one_pos⟩ : Fin 1) (⟨0, Nat.one_pos⟩ : Fin 1) :=
    funext fun a => Fin.ext (by match a with | ⟨0, _⟩ => rfl | ⟨1, _⟩ => rfl)
  have e68 : idx_main_v68 (ix2 r k) = ix1 k := funext fun a => Fin.ext (by match a with | ⟨0, _⟩ => rfl)
  have e70 : idx_main_v70 (ix2 r k) = ix1 k := funext fun a => Fin.ext (by match a with | ⟨0, _⟩ => rfl)
  rw [val_main_v72_apply, val_main_call2_v0_apply, val_main_call2_cst_apply, val_main_v71_apply, val_main_v69_apply,
    val_main_v70_apply, e70, val_main_v67_apply, val_main_v68_apply, e68,
    val_main_v62_apply, val_main_v61_apply, e61, gl_mean x2 r, val_main_v66_apply, e66, val_main_v65_apply,
    val_main_v64_apply, gl_var x2 r, val_main_v63_apply, val_main_cst_13_apply]
  simp only [Ideal.maximumf_def, Ideal.addf_def, Ideal.subf_def, Ideal.mulf_def, Ideal.hostUnary_rsqrt_def,
    Ideal.ofBits_def, Ideal.ofBits_zero_f32]
  rfl

/-- The global table stage at (r, q): the rectified normalised row against row q of the weight. -/
theorem gl_ref (x2 : (⟨Cert.ReferenceIdeal.S1x256, .f32⟩ : BufTy).Contents (Elt Ideal)) (x10 x11 : (⟨Cert.ReferenceIdeal.S256, .f32⟩ : BufTy).Contents (Elt Ideal)) (x16 : (⟨Cert.ReferenceIdeal.S128x256, .f32⟩ : BufTy).Contents (Elt Ideal)) (r : Fin 1) (q : Fin 128) :
    val_main_v83 (F := Ideal) x2 x10 x11 x16 (ix2 r q)
      = Cert.RowSpec.tableEntry (fun k => x2 (ix2 r k)) (fun k => x10 (ix1 k)) (fun k => x11 (ix1 k)) (fun k => x16 (ix2 q k)) := by
  rw [val_main_v83_apply]
  unfold Cert.RowSpec.tableEntry
  refine Finset.sum_congr rfl fun k _ => ?_
  have el : lidx_main_v83 (ix2 r q) k = ix2 r k :=
    funext fun a => Fin.ext (by match a with | ⟨0, _⟩ => rfl | ⟨1, _⟩ => rfl)
  have er : idx_main_v82 (ridx_main_v83 (ix2 r q) k) = ix2 q k :=
    funext fun a => Fin.ext (by match a with | ⟨0, _⟩ => rfl | ⟨1, _⟩ => rfl)
  rw [el, gl_row, val_main_v82_apply, er]

/-! ## The big projection

No normalisation: row r of the 1000000 x 128 values against row q of the (transposed) weight, plus entry q of
the bias, which is broadcast along the rows. -/

/-- The projection stage at (r, q): the dot product of row r with weight row q, plus the bias entry q. -/
theorem proj_ref (x3 : (⟨Cert.ReferenceIdeal.S1000000x128, .f32⟩ : BufTy).Contents (Elt Ideal)) (x12 : (⟨Cert.ReferenceIdeal.S128x128, .f32⟩ : BufTy).Contents (Elt Ideal)) (x13 : (⟨Cert.ReferenceIdeal.S128, .f32⟩ : BufTy).Contents (Elt Ideal)) (r : Fin 1000000) (q : Fin 128) :
    val_main_v77 (F := Ideal) x3 x12 x13 (ix2 r q)
      = Cert.RowSpec.projEntry (fun k => x3 (ix2 r k)) (fun k => x12 (ix2 q k)) (x13 (ix1 q)) := by
  have e76 : idx_main_v75 (idx_main_v76 (ix2 r q)) = ix1 q := funext fun a => Fin.ext (by match a with | ⟨0, _⟩ => rfl)
  rw [val_main_v77_apply, val_main_v76_apply, val_main_v75_apply, e76, val_main_v74_apply, Ideal.addf_def]
  unfold Cert.RowSpec.projEntry
  refine congrArg (· + x13 (ix1 q)) (Finset.sum_congr rfl fun k _ => ?_)
  have el : lidx_main_v74 (ix2 r q) k = ix2 r k :=
    funext fun a => Fin.ext (by match a with | ⟨0, _⟩ => rfl | ⟨1, _⟩ => rfl)
  have er : idx_main_v73 (ridx_main_v74 (ix2 r q) k) = ix2 q k :=
    funext fun a => Fin.ext (by match a with | ⟨0, _⟩ => rfl | ⟨1, _⟩ => rfl)
  rw [el, val_main_v73_apply, er]

end Cert.Bridge

end
-- ==== Proof.Tail.lean ====
import proofs.«420006_j33088428049090_2_alg».proof.Proof.Gen.KernelIdeal.Frame
import proofs.«420006_j33088428049090_2_alg».proof.Proof.Gen.ReferenceIdeal.Read
import Idealize.ShloMosaic.Lib.ValueIdx
import Idealize.ShloMosaic.Lib.StableHlo.Run
import Idealize.ShloMosaic.Lib.StableHlo.Predicate

set_option maxRecDepth 16384

noncomputable section

namespace Cert.Bridge

open Idealize.ShloMosaic Idealize.ShloMosaic.TcCoe Idealize.SL.Sem Idealize.ShloMosaic.ValueIdx
open Cert.KernelIdeal Cert.KernelIdeal.Gen

/-- The reference's closing operations as ONE function of the four tables and the two index arrays: gather the
    scene-point and view rows at the wrapped indices, add them and the broadcast global row to the big projection,
    scale by a quarter. -/
def combine (P : (⟨Cert.ReferenceIdeal.S1000000x128, .f32⟩ : BufTy).Contents (Elt Ideal)) (SP : (⟨Cert.ReferenceIdeal.S100000x128, .f32⟩ : BufTy).Contents (Elt Ideal)) (VW : (⟨Cert.ReferenceIdeal.S2000x128, .f32⟩ : BufTy).Contents (Elt Ideal)) (GLB : (⟨Cert.ReferenceIdeal.S1x128, .f32⟩ : BufTy).Contents (Elt Ideal))
    (x4 x5 : (⟨Cert.ReferenceIdeal.S1000000, .i32⟩ : BufTy).Contents (Elt Ideal)) : (⟨Cert.ReferenceIdeal.S1000000x128, .f32⟩ : BufTy).Contents (Elt Ideal) :=
  mulf (F := Ideal) (φ := .f32)
    (addf (F := Ideal) (φ := .f32)
      (addf (F := Ideal) (φ := .f32)
        (addf (F := Ideal) (φ := .f32) P
          (Host.gather Cert.ReferenceIdeal.gather_S100000x128_S1000000x1_S1000000x128_1_0_n_n_0_1_1128 SP
            (Cert.ReferenceIdeal.Read.val_main_v89 (F := Ideal) x5)))
        (Host.gather Cert.ReferenceIdeal.gather_S2000x128_S1000000x1_S1000000x128_1_0_n_n_0_1_1128 VW
          (Cert.ReferenceIdeal.Read.val_main_v97 (F := Ideal) x4)))
      (broadcastInDim Cert.ReferenceIdeal.S1000000x128 ![0, 1] Cert.ReferenceIdeal.Gen.bcast_S1x128_S1000000x128_0_1 GLB))
    (Cert.ReferenceIdeal.Read.val_main_v102 (F := Ideal))

/-- The reference's result stage is `combine` of its four table stages. -/
theorem ref_is_combine (x0 : (⟨Cert.ReferenceIdeal.S100000x256, .f32⟩ : BufTy).Contents (Elt Ideal)) (x1 : (⟨Cert.ReferenceIdeal.S2000x256, .f32⟩ : BufTy).Contents (Elt Ideal)) (x2 : (⟨Cert.ReferenceIdeal.S1x256, .f32⟩ : BufTy).Contents (Elt Ideal)) (x3 : (⟨Cert.ReferenceIdeal.S1000000x128, .f32⟩ : BufTy).Contents (Elt Ideal))
    (x4 x5 : (⟨Cert.ReferenceIdeal.S1000000, .i32⟩ : BufTy).Contents (Elt Ideal)) (x6 x7 x8 x9 x10 x11 : (⟨Cert.ReferenceIdeal.S256, .f32⟩ : BufTy).Contents (Elt Ideal)) (x12 : (⟨Cert.ReferenceIdeal.S128x128, .f32⟩ : BufTy).Contents (Elt Ideal))
    (x13 : (⟨Cert.ReferenceIdeal.S128, .f32⟩ : BufTy).Contents (Elt Ideal)) (x14 x15 x16 : (⟨Cert.ReferenceIdeal.S128x256, .f32⟩ : BufTy).Contents (Elt Ideal)) :
    Cert.ReferenceIdeal.Read.val_main_v103 (F := Ideal) x0 x1 x2 x3 x4 x5 x6 x7 x8 x9 x10 x11 x12 x13 x14 x15 x16
      = combine (Cert.ReferenceIdeal.Read.val_main_v77 (F := Ideal) x3 x12 x13) (Cert.ReferenceIdeal.Read.val_main_v79 (F := Ideal) x0 x6 x7 x14)
          (Cert.ReferenceIdeal.Read.val_main_v81 (F := Ideal) x1 x8 x9 x15) (Cert.ReferenceIdeal.Read.val_main_v83 (F := Ideal) x2 x10 x11 x16) x4 x5 := by
  unfold Cert.ReferenceIdeal.Read.val_main_v103 Cert.ReferenceIdeal.Read.val_main_v101 Cert.ReferenceIdeal.Read.val_main_v100
    Cert.ReferenceIdeal.Read.val_main_v99 Cert.ReferenceIdeal.Read.val_main_v98 Cert.ReferenceIdeal.Read.val_main_v91
    Cert.ReferenceIdeal.Read.val_main_v90 combine
  rfl

/-! ## A reduce by `and` over bits that are all 1 -/

/-- A fold by `and` from 1 over one-bit words that are all 1 is 1. -/
theorem fold_andi_one {ι : Type} (S : Finset ι) (x : ι → BitVec 1) (h : ∀ i ∈ S, x i = 1#1) :
    S.fold IntOp.andi 1#1 x = 1#1 := by
  induction S using Finset.cons_induction with
  | empty => rfl
  | cons a S ha ih =>
    rw [Finset.fold_cons, h a (Finset.mem_cons.mpr (Or.inl rfl)), ih fun i hi => h i (Finset.mem_cons.mpr (Or.inr hi))]
    rfl

/-- A `stablehlo.reduce` by `and` from the bit 1 over an array of bits that are all 1 is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_fold, hinit]
  exact fold_andi_one _ x fun i _ => hx i

/-! ## One call of `jnp.take`, over variables

  `wrapCol n x` is the index column the call gathers at: an index that is negative as a signed word has `n` added, and
  the vector becomes an [N, 1] column. `inRange hi w` is the call's mask, row by row `0 ≤ w` and `w ≤ hi`, spread over
  the 128 lanes. `nanFill` is the array of the NaN word the call writes where the mask is 0. `take d n hi T x` is the
  call: the gather of the table `T` at the column where the mask is 1, the NaN word elsewhere. -/

/-- The wrapped index column. -/
def wrapCol (n : BitVec 32) (x : IVec S1000000 32) : IVec S1000000x1 32 :=
  broadcastInDim S1000000x1 ![0] bcast_S1000000_S1000000x1_0
    (select (cmpi .slt x (broadcastInDim S1000000 ![] bcast_S_S1000000 (constantI S_ 32 0#32)))
      (addi x (broadcastInDim S1000000 ![] bcast_S_S1000000 (constantI S_ 32 n))) x)

/-- The in-range mask of an index column, over the lanes. -/
def inRange (hi : BitVec 32) (w : IVec S1000000x1 32) : IVec S1000000x128 1 :=
  broadcastInDim S1000000x128 ![0] bcast_S1000000_S1000000x128_0
    (Host.reduce IntOp.andi
      (andi (cmpi .sge w (broadcastInDim S1000000x1 ![] bcast_S_S1000000x1 (constantI S_ 32 0#32)))
        (cmpi .sle w (broadcastInDim S1000000x1 ![0, 1] bcast_S1x1_S1000000x1_0_1
          (broadcastInDim S1x1 ![1] bcast_S1_S1x1_1 (constantI S1 32 hi)))))
      (constantI S_ 1 1#1) reducesTo_S1000000x1_S1000000_d1 h_S_)

/-- The fill value: the NaN word everywhere. -/
def nanFill : FVec Ideal S1000000x128 .f32 :=
  broadcastInDim S1000000x128 ![] bcast_S_S1000000x128 (constant (F := Ideal) S_ .f32 0x7FC00000#32)

/-- One call of `jnp.take` on a table of shape `S`. -/
def take {S : Shape} (d : GatherDims S S1000000x1 S1000000x128) (n hi : BitVec 32) (T : FVec Ideal S .f32)
    (x : IVec S1000000 32) : FVec Ideal S1000000x128 .f32 :=
  select (inRange hi (wrapCol n x)) (Host.gather d T (wrapCol n x)) nanFill

/-- An index below 2³¹ is not negative as a signed word: the wrap leaves the vector as it is. -/
theorem wrap_eq (n : BitVec 32) (x : IVec S1000000 32) (hx : ∀ i, (x i).toNat < 2 ^ 31) :
    select (cmpi .slt x (broadcastInDim S1000000 ![] bcast_S_S1000000 (constantI S_ 32 0#32)))
      (addi x (broadcastInDim S1000000 ![] bcast_S_S1000000 (constantI S_ 32 n))) x = x := by
  funext i
  have hz : cmpi .slt x (broadcastInDim S1000000 ![] bcast_S_S1000000 (constantI S_ 32 0#32)) i = 0#1 := by
    apply eq_zero_of_ne_one
    show ¬ IntOp.cmpi .slt (x i) 0#32 = 1#1
    rw [StableHlo.Predicate.slt_iff_toNat (hx i) (by decide)]
    exact Nat.not_lt_zero _
  rw [select_apply, hz, select_zero]

/-- So each entry of the index column is an entry of the index vector. -/
theorem wrapCol_apply (n : BitVec 32) (x : IVec S1000000 32) (hx : ∀ i, (x i).toNat < 2 ^ 31) (k : S1000000x1.Idx) :
    ∃ i, wrapCol n x k = x i := by
  unfold wrapCol
  rw [wrap_eq n x hx]
  exact ⟨_, rfl⟩

/-- With every index at most `hi` (a word below 2³¹) the mask is 1 everywhere: each row's index is at least 0 and
    at most `hi` as signed words, because small words compare as their values. -/
theorem inRange_one (n hi : BitVec 32) (hhi : hi.toNat < 2 ^ 31) (x : IVec S1000000 32) (hx : ∀ i, (x i).toNat ≤ hi.toNat)
    (j : S1000000x128.Idx) : inRange hi (wrapCol n x) j = 1#1 := by
  unfold inRange broadcastInDim
  apply reduce_andi_ones
  · intro k
    obtain ⟨i, hi'⟩ := wrapCol_apply n x (fun i => lt_of_le_of_lt (hx i) hhi) k
    show IntOp.andi (IntOp.cmpi .sge (wrapCol n x k) 0#32) (IntOp.cmpi .sle (wrapCol n x k) hi) = 1#1
    rw [hi', IntOp.andi_eq_one, StableHlo.Predicate.sge_iff_toNat (lt_of_le_of_lt (hx i) hhi) (by decide),
      StableHlo.Predicate.sle_iff_toNat (lt_of_le_of_lt (hx i) hhi) hhi]
    exact ⟨Nat.zero_le _, hx i⟩
  · intro k; rfl

/-- With every index below the table's row count `N = hi + 1` the call is the plain gather at the wrapped column. -/
theorem take_eq_gather {S : Shape} (d : GatherDims S S1000000x1 S1000000x128) (n hi : BitVec 32) (N : ℕ)
    (hN : hi.toNat + 1 = N) (hhi : hi.toNat < 2 ^ 31) (T : FVec Ideal S .f32) (x : IVec S1000000 32)
    (hx : ∀ i, (x i).toNat < N) :
    take d n hi T x = Host.gather d T (wrapCol n x) := by
  funext j
  unfold take
  rw [select_apply, inRange_one n hi hhi x (fun i => by have := hx i; omega) j, select_one]

/-! ## The three stretches of host operations, read off any contents `V`

  A call's operations are stated over references that carry their tensor type, and move contents between that type
  and the buffer's own along an equation of types. At a literal reference the two types are one, so the moves are
  the identity: `ofBuf_toBuf` for a value written and read back inside a call, the six after it for the calls'
  operands and results. -/

/-- Contents moved to a buffer's own type and back are the contents. -/
theorem ofBuf_toBuf {T : BufTy} (x : StableHlo.TRef sig T) (v : T.Contents (Elt Ideal)) : x.ofBuf (x.toBuf v) = v := by
  obtain ⟨r, rfl, h1, h2⟩ := x
  rfl

theorem ofBuf_arg5 (p1 p2 p3) (v : (Proc.devRef (τ := τ) .tc main_arg5).ty.Contents (Elt Ideal)) :
    (StableHlo.TRef.of (T := ⟨S1000000, .i32⟩) main_arg5 p1 p2 p3).ofBuf v = v := rfl
theorem ofBuf_arg4 (p1 p2 p3) (v : (Proc.devRef (τ := τ) .tc main_arg4).ty.Contents (Elt Ideal)) :
    (StableHlo.TRef.of (T := ⟨S1000000, .i32⟩) main_arg4 p1 p2 p3).ofBuf v = v := rfl
theorem ofBuf_v11 (p1 p2 p3) (v : (Proc.devRef (τ := τ) .tc main_v11).ty.Contents (Elt Ideal)) :
    (StableHlo.TRef.of (T := ⟨S100000x128, .f32⟩) main_v11 p1 p2 p3).ofBuf v = v := rfl
theorem ofBuf_v12_0 (p1 p2 p3) (v : (Proc.devRef (τ := τ) .tc main_v12_0).ty.Contents (Elt Ideal)) :
    (StableHlo.TRef.of (T := ⟨S2000x128, .f32⟩) main_v12_0 p1 p2 p3).ofBuf v = v := rfl
theorem toBuf_v14 (p1 p2 p3) (y : FVec Ideal S1000000x128 .f32) :
    (StableHlo.TRef.of (T := ⟨S1000000x128, .f32⟩) main_v14 p1 p2 p3).toBuf (Val := Elt Ideal) y = y := rfl
theorem toBuf_v15 (p1 p2 p3) (y : FVec Ideal S1000000x128 .f32) :
    (StableHlo.TRef.of (T := ⟨S1000000x128, .f32⟩) main_v15 p1 p2 p3).toBuf (Val := Elt Ideal) y = y := rfl

section Stretches

variable (V : Valuation τ sig (Elt Ideal))

/-- The first call writes the take of the scene-point table at the point indices. -/
theorem after3_v14 :
    StableHlo.after (hostOps3 (F := Ideal)) V (Proc.devRef .tc main_v14)
      = take gather_S100000x128_S1000000x1_S1000000x128_1_0_n_n_0_1_1128 100000#32 99999#32
          (V (Proc.devRef .tc main_v11)) (V (Proc.devRef .tc main_arg5)) := by
  simp only [hostOps3]
  after_results_simp
  simp only [ofBuf_toBuf, ofBuf_arg5, ofBuf_v11, toBuf_v14]
  unfold take inRange wrapCol nanFill
  rfl

/-- It writes none of the other arrays the closing operations read. -/
theorem after3_v13 :
    StableHlo.after (hostOps3 (F := Ideal)) V (Proc.devRef .tc main_v13) = V (Proc.devRef .tc main_v13) := by
  simp only [hostOps3]
  after_results_simp
theorem after3_v12_0 :
    StableHlo.after (hostOps3 (F := Ideal)) V (Proc.devRef .tc main_v12_0) = V (Proc.devRef .tc main_v12_0) := by
  simp only [hostOps3]
  after_results_simp
theorem after3_v12_1 :
    StableHlo.after (hostOps3 (F := Ideal)) V (Proc.devRef .tc main_v12_1) = V (Proc.devRef .tc main_v12_1) := by
  simp only [hostOps3]
  after_results_simp
theorem after3_arg4 :
    StableHlo.after (hostOps3 (F := Ideal)) V (Proc.devRef .tc main_arg4) = V (Proc.devRef .tc main_arg4) := by
  simp only [hostOps3]
  after_results_simp

/-- The second call writes the take of the view table at the view indices. -/
theorem after31_v15 :
    StableHlo.after (hostOps3_1 (F := Ideal)) V (Proc.devRef .tc main_v15)
      = take gather_S2000x128_S1000000x1_S1000000x128_1_0_n_n_0_1_1128 2000#32 1999#32
          (V (Proc.devRef .tc main_v12_0)) (V (Proc.devRef .tc main_arg4)) := by
  simp only [hostOps3_1]
  after_results_simp
  simp only [ofBuf_toBuf, ofBuf_arg4, ofBuf_v12_0, toBuf_v15]
  unfold take inRange wrapCol nanFill
  rfl

theorem after31_v13 :
    StableHlo.after (hostOps3_1 (F := Ideal)) V (Proc.devRef .tc main_v13) = V (Proc.devRef .tc main_v13) := by
  simp only [hostOps3_1]
  after_results_simp
theorem after31_v14 :
    StableHlo.after (hostOps3_1 (F := Ideal)) V (Proc.devRef .tc main_v14) = V (Proc.devRef .tc main_v14) := by
  simp only [hostOps3_1]
  after_results_simp
theorem after31_v12_1 :
    StableHlo.after (hostOps3_1 (F := Ideal)) V (Proc.devRef .tc main_v12_1) = V (Proc.devRef .tc main_v12_1) := by
  simp only [hostOps3_1]
  after_results_simp

/-- The last stretch adds the two takes and the broadcast global row to the big projection and scales by a quarter. -/
theorem after32_v21 :
    StableHlo.after (hostOps3_2 (F := Ideal)) V (Proc.devRef .tc main_v21)
      = mulf (F := Ideal) (φ := .f32)
          (addf (F := Ideal) (φ := .f32)
            (addf (F := Ideal) (φ := .f32)
              (addf (F := Ideal) (φ := .f32) (V (Proc.devRef .tc main_v13)) (V (Proc.devRef .tc main_v14)))
              (V (Proc.devRef .tc main_v15)))
            (broadcastInDim S1000000x128 ![0, 1] bcast_S1x128_S1000000x128_0_1 (V (Proc.devRef .tc main_v12_1))))
          (broadcastInDim S1000000x128 ![] bcast_S_S1000000x128 (constant (F := Ideal) S_ .f32 0x3E800000#32)) := by
  simp only [hostOps3_2]
  after_results_simp

end Stretches

/-! ## The two programs' closing operations agree -/

/-- Over variables: the kernel program's closing term — its two takes, the adds, the scaling — is the reference's
    `combine` when both index arrays are in range. The index column, the gathers' dimension records, the broadcasts
    and the constants are the same literals in the two programs. -/
theorem kernel_tail_eq_combine (P : FVec Ideal S1000000x128 .f32) (SP : FVec Ideal S100000x128 .f32)
    (VW : FVec Ideal S2000x128 .f32) (GLB : FVec Ideal S1x128 .f32) (x4 x5 : IVec S1000000 32)
    (h4 : ∀ i, (x4 i).toNat < 2000) (h5 : ∀ i, (x5 i).toNat < 100000) :
    mulf (F := Ideal) (φ := .f32)
        (addf (F := Ideal) (φ := .f32)
          (addf (F := Ideal) (φ := .f32)
            (addf (F := Ideal) (φ := .f32) P
              (take gather_S100000x128_S1000000x1_S1000000x128_1_0_n_n_0_1_1128 100000#32 99999#32 SP x5))
            (take gather_S2000x128_S1000000x1_S1000000x128_1_0_n_n_0_1_1128 2000#32 1999#32 VW x4))
          (broadcastInDim S1000000x128 ![0, 1] bcast_S1x128_S1000000x128_0_1 GLB))
        (broadcastInDim S1000000x128 ![] bcast_S_S1000000x128 (constant (F := Ideal) S_ .f32 0x3E800000#32))
      = combine P SP VW GLB x4 x5 := by
  rw [take_eq_gather _ 100000#32 99999#32 100000 (by decide) (by decide) SP x5 h5,
    take_eq_gather _ 2000#32 1999#32 2000 (by decide) (by decide) VW x4 h4]
  unfold combine wrapCol Cert.ReferenceIdeal.Read.val_main_v89 Cert.ReferenceIdeal.Read.val_main_v88
    Cert.ReferenceIdeal.Read.val_main_v87 Cert.ReferenceIdeal.Read.val_main_v86 Cert.ReferenceIdeal.Read.val_main_v85
    Cert.ReferenceIdeal.Read.val_main_v84 Cert.ReferenceIdeal.Read.val_main_c Cert.ReferenceIdeal.Read.val_main_c_14
    Cert.ReferenceIdeal.Read.val_main_v97 Cert.ReferenceIdeal.Read.val_main_v96
    Cert.ReferenceIdeal.Read.val_main_v95 Cert.ReferenceIdeal.Read.val_main_v94 Cert.ReferenceIdeal.Read.val_main_v93
    Cert.ReferenceIdeal.Read.val_main_v92 Cert.ReferenceIdeal.Read.val_main_c_15 Cert.ReferenceIdeal.Read.val_main_c_16
    Cert.ReferenceIdeal.Read.val_main_v102 Cert.ReferenceIdeal.Read.val_main_cst_17
  rfl

variable (m : (ℓ : Loc nD τ sig) → Buf (Elt Ideal) ℓ) (ρ : Dev nD → PrngReg) (c : Dev nD)

/-- The kernel program's result array, read off the last boundary of the frame's fold, is the same `combine` of the
    four arrays its regions left and the two index arrays, when every index is in range. -/
theorem tail_value
    (h4 : ∀ i : S1000000.Idx, ((V4 (F := Ideal) m ρ c main_arg4 : S1000000.Idx → BitVec 32) i).toNat < 2000)
    (h5 : ∀ i : S1000000.Idx, ((V4 (F := Ideal) m ρ c main_arg5 : S1000000.Idx → BitVec 32) i).toNat < 100000) :
    W7 (F := Ideal) m ρ c (Proc.devRef .tc main_v21)
      = combine (V4 (F := Ideal) m ρ c main_v13) (V4 (F := Ideal) m ρ c main_v11) (V4 (F := Ideal) m ρ c main_v12_0) (V4 (F := Ideal) m ρ c main_v12_1)
          (V4 (F := Ideal) m ρ c main_arg4) (V4 (F := Ideal) m ρ c main_arg5) := by
  show StableHlo.after hostOps3_2 (StableHlo.after hostOps3_1 (StableHlo.after hostOps3 (W4 m ρ c))) (Proc.devRef .tc main_v21) = _
  rw [after32_v21, after31_v13, after31_v14, after31_v15, after31_v12_1, after3_v13, after3_v14, after3_v12_0,
    after3_v12_1, after3_arg4]
  exact kernel_tail_eq_combine _ _ _ _ _ _ h4 h5

end Cert.Bridge

end
-- ==== Proof.IdxRange.lean ====
import proofs.«420006_j33088428049090_2_alg».proof.Defs
import proofs.«420006_j33088428049090_2_alg».proof.Proof.Gen.KernelIdeal
import proofs.«420006_j33088428049090_2_alg».proof.Proof.Gen.Pre_finite_inputs
import Idealize.ShloMosaic.Lib.ValueIdx
import Idealize.ShloMosaic.Lib.ReduceAll
import Idealize.ShloMosaic.Lib.StableHlo.Predicate

set_option maxRecDepth 16384

noncomputable section

namespace Cert.Bridge

open Idealize.ShloMosaic Idealize.ShloMosaic.TcCoe Idealize.SL.Sem Idealize.ShloMosaic.ValueIdx
open Cert.KernelIdeal

variable (m : (ℓ : Loc nD τ sig) → Buf (Elt Ideal) ℓ) (c : Dev nD)

/-- A 32-bit word that tests `0 ≤ w` and `w < n` as a SIGNED word (with `n` below 2³¹) has its sign bit clear, so
    it reads the same signed and unsigned, and its unsigned value is below `n`. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt] at h1
  have hw : 2 * w.toNat < 2 ^ 32 := BitVec.toInt_pos_iff.1 h0
  rw [StableHlo.Predicate.toInt_eq_toNat_of_lt (by omega), StableHlo.Predicate.toInt_ofNat_small n hn] at h1
  exact_mod_cast h1

/-- The tail of the precondition's conjunction (from operation %68 on) carries the two index-range conjuncts
    `all (0 ≤ view_idx < 2000)` and `all (0 ≤ pt_idx < 100000)`. If the tail is 1, each `all` is 1; an and-reduction
    that is 1 met only 1s, so at every position both signed comparisons hold, and the words are in range. -/
theorem ranges_of_tail (a4 a5 : IVec Cert.Pre_finite_inputs.S1000000 32)
    (a16 : FVec Ideal Cert.Pre_finite_inputs.S128x256 .f32) (v63 v67 : IVec Cert.Pre_finite_inputs.S_ 1)
    (h : Cert.Pre_finite_inputs.fn_part4 (F := Ideal) a4 a5 a16 v63 v67 ValueIdx.ix0 = 1#1)
    (i : Cert.Pre_finite_inputs.S1000000.Idx) : (a4 i).toNat < 2000 ∧ (a5 i).toNat < 100000 := by
  haveI : Subsingleton Cert.Pre_finite_inputs.S_.Idx := ⟨fun a b => funext fun d => d.elim0⟩
  unfold Cert.Pre_finite_inputs.fn_part4 Cert.Pre_finite_inputs.fn_part5 at h
  dsimp only at h
  obtain ⟨h80, h86⟩ := IntOp.andi_eq_one.1 h
  obtain ⟨-, h79⟩ := IntOp.andi_eq_one.1 h80
  have hv := Host.reduce_andi_all _ _ _ _ _ h79 i
  have hp := Host.reduce_andi_all _ _ _ _ _ h86 i
  obtain ⟨hv0, hv1⟩ := IntOp.andi_eq_one.1 hv
  obtain ⟨hp0, hp1⟩ := IntOp.andi_eq_one.1 hp
  exact ⟨toNat_lt_of_signed_range _ 2000 (by decide) hv0 hv1, toNat_lt_of_signed_range _ 100000 (by decide) hp0 hp1⟩

/-- The precondition at a device, walked down its conjunction to the tail that holds the index-range conjuncts. -/
theorem idx_ranges (hpre : Cert.Pre_KernelIdeal (hPre_finite_inputs := Cert.Pre_finite_inputs.Gen.facts) m) (i : S1000000.Idx) :
    (((m ((c : Thread nD τ).loc main_arg4)) : S1000000.Idx → BitVec 32) i).toNat < 2000
      ∧ (((m ((c : Thread nD τ).loc main_arg5)) : S1000000.Idx → BitVec 32) i).toNat < 100000 := by
  have h := congrFun (hpre c) ValueIdx.ix0
  unfold Cert.Pre_finite_inputs.fn Cert.Pre_finite_inputs.fn_part1 Cert.Pre_finite_inputs.fn_part2
    Cert.Pre_finite_inputs.fn_part3 at h
  dsimp only at h
  exact ranges_of_tail _ _ _ _ _ h i

/-- Under the precondition every view index is a word below 2000 (so non-negative as a signed word). -/
theorem view_idx_lt (hpre : Cert.Pre_KernelIdeal (hPre_finite_inputs := Cert.Pre_finite_inputs.Gen.facts) m) (i : S1000000.Idx) :
    (((m ((c : Thread nD τ).loc main_arg4)) : S1000000.Idx → BitVec 32) i).toNat < 2000 :=
  (idx_ranges m c hpre i).1

/-- Under the precondition every point index is a word below 100000. -/
theorem pt_idx_lt (hpre : Cert.Pre_KernelIdeal (hPre_finite_inputs := Cert.Pre_finite_inputs.Gen.facts) m) (i : S1000000.Idx) :
    (((m ((c : Thread nD τ).loc main_arg5)) : S1000000.Idx → BitVec 32) i).toNat < 100000 :=
  (idx_ranges m c hpre i).2

end Cert.Bridge

end
-- ==== Proof.Assemble.lean ====
/-
  The kernel program's result is the reference's result stage of the launch arguments.

  The kernel program computes, in three regions, the scene-point table, the view table with the global row, and the big
  projection; each entry of a table is the dot product of a rectified, normalised feature row with a weight row, and
  the reference's stages for the same tables are the same per-row formula (RowSpec), so the arrays the regions leave ARE
  the reference's table stages, index by index. A later region or host operation that does not write an array leaves it
  as it found it, so all four arrays and the two index arrays reach the closing host operations unchanged. Those
  operations are the reference's own (wrap, gather, add, add, add the broadcast row, scale by a quarter) except for
  the kernel's range mask on each gather, which is all ones when every index is in range — and that is what the
  precondition's two index conjuncts say.
-/
import proofs.«420006_j33088428049090_2_alg».proof.Defs
import proofs.«420006_j33088428049090_2_alg».proof.Proof.Gen.KernelIdeal.Frame
import proofs.«420006_j33088428049090_2_alg».proof.Proof.Gen.ReferenceIdeal.Read
import proofs.«420006_j33088428049090_2_alg».proof.Proof.RowSpec
import proofs.«420006_j33088428049090_2_alg».proof.Proof.SpKernel
import proofs.«420006_j33088428049090_2_alg».proof.Proof.VwKernel
import proofs.«420006_j33088428049090_2_alg».proof.Proof.GlKernel
import proofs.«420006_j33088428049090_2_alg».proof.Proof.ProjKernel
import proofs.«420006_j33088428049090_2_alg».proof.Proof.RefTables
import proofs.«420006_j33088428049090_2_alg».proof.Proof.Tail
import proofs.«420006_j33088428049090_2_alg».proof.Proof.IdxRange
import Idealize.ShloMosaic.Lib.ValueIdx

set_option maxRecDepth 16384

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-! ## The four tables as arrays: the kernel program's regions leave what the reference's stages compute -/

theorem sp_table : V2 (F := Ideal) m ρ c main_v11
    = Cert.ReferenceIdeal.Read.val_main_v79 (F := Ideal) (m ((c : Thread nD τ).loc main_arg0)) (m ((c : Thread nD τ).loc main_arg6)) (m ((c : Thread nD τ).loc main_arg7)) (m ((c : Thread nD τ).loc main_arg14)) := by
  funext i
  obtain ⟨r, q, rfl⟩ : ∃ (r : Fin 100000) (q : Fin 128), i = ix2 r q := ⟨i 0, i 1, eq_ix2 i⟩
  exact (sp_kernel m ρ c r q).trans (sp_ref _ _ _ _ r q).symm

theorem vw_table : V3 (F := Ideal) m ρ c main_v12_0
    = Cert.ReferenceIdeal.Read.val_main_v81 (F := Ideal) (m ((c : Thread nD τ).loc main_arg1)) (m ((c : Thread nD τ).loc main_arg8)) (m ((c : Thread nD τ).loc main_arg9)) (m ((c : Thread nD τ).loc main_arg15)) := by
  funext i
  obtain ⟨r, q, rfl⟩ : ∃ (r : Fin 2000) (q : Fin 128), i = ix2 r q := ⟨i 0, i 1, eq_ix2 i⟩
  exact (vw_kernel m ρ c r q).trans (vw_ref _ _ _ _ r q).symm

theorem gl_table : V3 (F := Ideal) m ρ c main_v12_1
    = Cert.ReferenceIdeal.Read.val_main_v83 (F := Ideal) (m ((c : Thread nD τ).loc main_arg2)) (m ((c : Thread nD τ).loc main_arg10)) (m ((c : Thread nD τ).loc main_arg11)) (m ((c : Thread nD τ).loc main_arg16)) := by
  funext i
  obtain ⟨r, q, rfl⟩ : ∃ (r : Fin 1) (q : Fin 128), i = ix2 r q := ⟨i 0, i 1, eq_ix2 i⟩
  exact (gl_kernel m ρ c r q).trans (gl_ref _ _ _ _ r q).symm

theorem proj_table : V4 (F := Ideal) m ρ c main_v13
    = Cert.ReferenceIdeal.Read.val_main_v77 (F := Ideal) (m ((c : Thread nD τ).loc main_arg3)) (m ((c : Thread nD τ).loc main_arg12)) (m ((c : Thread nD τ).loc main_arg13)) := by
  funext i
  obtain ⟨r, q, rfl⟩ : ∃ (r : Fin 1000000) (q : Fin 128), i = ix2 r q := ⟨i 0, i 1, eq_ix2 i⟩
  exact (proj_kernel m ρ c r q).trans (proj_ref _ _ _ r q).symm

/-! ## What a later region does not touch it leaves as it found it -/

/-- The scene-point table is written by region 0 only. -/
theorem carry_sp : V4 (F := Ideal) m ρ c main_v11 = V2 (F := Ideal) m ρ c main_v11 :=
  (hrest2 m ρ c main_v11 (by decide)).trans (hrest1 m ρ c main_v11 (by decide))
/-- The view table and the global row are written by region 1 only. -/
theorem carry_vw : V4 (F := Ideal) m ρ c main_v12_0 = V3 (F := Ideal) m ρ c main_v12_0 := hrest2 m ρ c main_v12_0 (by decide)
theorem carry_gl : V4 (F := Ideal) m ρ c main_v12_1 = V3 (F := Ideal) m ρ c main_v12_1 := hrest2 m ρ c main_v12_1 (by decide)
/-- The index array main_arg4 belongs to no region and no host operation writes it: it reaches the last region's exit as launched. -/
theorem carry_arg4 : V4 (F := Ideal) m ρ c main_arg4 = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
/-- The index array main_arg5 belongs to no region and no host operation writes it: it reaches the last region's exit as launched. -/
theorem carry_arg5 : V4 (F := Ideal) m ρ c main_arg5 = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The kernel program's result is the reference's result stage of the launch arguments -/

theorem kernel_value (hpre : Cert.Pre_KernelIdeal (hPre_finite_inputs := Cert.Pre_finite_inputs.Gen.facts) m) :
    W7 (F := Ideal) m ρ c (Proc.devRef .tc main_v21)
      = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [ref_is_combine,
    tail_value m ρ c (fun i => by rw [carry_arg4]; exact view_idx_lt m c hpre i) (fun i => by rw [carry_arg5]; exact pt_idx_lt m c hpre i),
    carry_sp, carry_vw, carry_gl, carry_arg4, carry_arg5, sp_table, vw_table, gl_table, proj_table]

end Cert.Bridge

end
-- ==== Proof.lean ====
/-
  The certificate: a three-region Pallas program (LayerNorm, relu and projection of the scene-point table in blocks of
  5000 rows; the same for the view table and the single global row in one block; the big projection of proj_values
  plus its bias in blocks of 8000 rows) followed on the host by two row gathers, three additions and a scaling by a
  quarter, against the plain jnp reference that normalises, rectifies, projects, gathers, adds and scales the same
  way.

  Precondition: every float input finite, and every view index in [0, 2000), every point index in [0, 100000) — outside
  that range the reference indexes out of range (its gather clamps) while the kernel's jnp.take fills the row with a
  NaN pattern, which at the ideal instance reads as the bottom element, so the two results differ there.

  The three frames: both kernel programs' are the generated whole frames; the reference has no kernel, and its frame is
  its generated run with the result dropped. The idealization rewrote nothing, so `preserves` is `True`.
  The value claim: the kernel program's run ends with its result array at the contents the frame's fold of boundary
  contents leaves (the launch theorem called once more with the result named), which is the reference's result stage
  of the launch arguments (Proof/Assemble.lean); the reference's run ends at that stage of its own arguments, and the
  arguments agree.
-/
import proofs.«420006_j33088428049090_2_alg».proof.Defs
import proofs.«420006_j33088428049090_2_alg».proof.Proof.Gen.Kernel
import proofs.«420006_j33088428049090_2_alg».proof.Proof.Gen.Kernel.Skeleton
import proofs.«420006_j33088428049090_2_alg».proof.Proof.Gen.Kernel.Launch
import proofs.«420006_j33088428049090_2_alg».proof.Proof.Gen.Kernel.Points
import proofs.«420006_j33088428049090_2_alg».proof.Proof.Gen.Kernel.Frame
import proofs.«420006_j33088428049090_2_alg».proof.Proof.Gen.KernelIdeal
import proofs.«420006_j33088428049090_2_alg».proof.Proof.Gen.KernelIdeal.Skeleton
import proofs.«420006_j33088428049090_2_alg».proof.Proof.Gen.KernelIdeal.Launch
import proofs.«420006_j33088428049090_2_alg».proof.Proof.Gen.KernelIdeal.Points
import proofs.«420006_j33088428049090_2_alg».proof.Proof.Gen.KernelIdeal.Frame
import proofs.«420006_j33088428049090_2_alg».proof.Proof.Gen.ReferenceIdeal
import proofs.«420006_j33088428049090_2_alg».proof.Proof.Gen.ReferenceIdeal.Read
import proofs.«420006_j33088428049090_2_alg».proof.Proof.Gen.Pre_finite_inputs
import proofs.«420006_j33088428049090_2_alg».proof.Proof.KRun
import proofs.«420006_j33088428049090_2_alg».proof.Proof.Assemble
import Idealize.ShloMosaic.Adequacy
import Idealize.ShloMosaic.Init

noncomputable section

namespace Cert.Proof

open Idealize.ShloMosaic Idealize.ShloMosaic.TcCoe Idealize.SL.Sem

/-- Both kernel programs run, fault-free, with their arguments unchanged: the generated whole frames. -/
theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the reference's result stage of the kernel side's arguments. -/
theorem algebraic : Cert.algebraic_KernelIdeal_ReferenceIdeal := by
  intro m ρ m' ρ' hpre hagree
  refine ⟨fun c => Cert.ReferenceIdeal.Read.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono (fun _ h c => ⟨(h c).1.trans (Cert.Bridge.kernel_value m ρ c hpre), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v103_eq]
    obtain ⟨h0, h1, h2, h3, h4, h5, h6, h7, h8, h9, h10, h11, h12, h13, h14, h15, h16⟩ := hagree c
    rw [h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
